-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x4096 : Shape := ⟨3, ![2, 4096, 4096]⟩
abbrev S2x4096x32 : Shape := ⟨3, ![2, 4096, 32]⟩
abbrev S1x1x32 : Shape := ⟨3, ![1, 1, 32]⟩
abbrev S32x96 : Shape := ⟨2, ![32, 96]⟩
abbrev S96 : Shape := ⟨1, ![96]⟩
abbrev S_ : Shape := ⟨0, ![]⟩

class Facts : Prop where
  bcast_S_S2x4096x4096 : S_.BroadcastsInDim S2x4096x4096 (![] : Fin 0 → Fin S2x4096x4096.rank)
  reducesTo_S2x4096x4096_S_d0_1_2 : S2x4096x4096.ReducesTo [0, 1, 2] S_
  h_S_ : 0 < S_.numel
  bcast_S_S2x4096x32 : S_.BroadcastsInDim S2x4096x32 (![] : Fin 0 → Fin S2x4096x32.rank)
  reducesTo_S2x4096x32_S_d0_1_2 : S2x4096x32.ReducesTo [0, 1, 2] S_
  bcast_S_S1x1x32 : S_.BroadcastsInDim S1x1x32 (![] : Fin 0 → Fin S1x1x32.rank)
  reducesTo_S1x1x32_S_d0_1_2 : S1x1x32.ReducesTo [0, 1, 2] S_
  bcast_S_S32x96 : S_.BroadcastsInDim S32x96 (![] : Fin 0 → Fin S32x96.rank)
  reducesTo_S32x96_S_d0_1 : S32x96.ReducesTo [0, 1] S_
  bcast_S_S96 : S_.BroadcastsInDim S96 (![] : Fin 0 → Fin S96.rank)
  reducesTo_S96_S_d0 : S96.ReducesTo [0] S_

variable [Facts]

def fn_part1 {F : FTy → Type} [FloatOps F] (main_arg4 : FVec F S32x96 .f32) (main_arg5 : FVec F S96 .f32) (main_arg6 : FVec F S96 .f32) (main_v13 : IVec S_ 1) (main_v16 : IVec S32x96 1) : IVec S_ 1 :=
  let main_c_5 : IVec S_ 1 := constantI S_ 1 1#1
  let main_v17 : IVec S_ 1 := (fun x v => Host.reduce IntOp.andi x v reducesTo_S32x96_S_d0_1 h_S_) main_v16 main_c_5
  let main_v18 : IVec S_ 1 := andi main_v13 main_v17
  let main_v19 : FVec F S32x96 .f32 := Host.absf main_arg4
  let main_cst_6 : FVec F S_ .f32 := constant S_ .f32 0x7F800000#32
  let main_v20 : FVec F S32x96 .f32 := broadcastInDim S32x96 ![] bcast_S_S32x96 main_cst_6
  let main_v21 : IVec S32x96 1 := cmpf .olt main_v19 main_v20
  let main_c_7 : IVec S_ 1 := constantI S_ 1 1#1
  let main_v22 : IVec S_ 1 := (fun x v => Host.reduce IntOp.andi x v reducesTo_S32x96_S_d0_1 h_S_) main_v21 main_c_7
  let main_v23 : IVec S_ 1 := andi main_v18 main_v22
  let main_v24 : FVec F S96 .f32 := Host.absf main_arg5
  let main_cst_8 : FVec F S_ .f32 := constant S_ .f32 0x7F800000#32
  let main_v25 : FVec F S96 .f32 := broadcastInDim S96 ![] bcast_S_S96 main_cst_8
  let main_v26 : IVec S96 1 := cmpf .olt main_v24 main_v25
  let main_c_9 : IVec S_ 1 := constantI S_ 1 1#1
  let main_v27 : IVec S_ 1 := (fun x v => Host.reduce IntOp.andi x v reducesTo_S96_S_d0 h_S_) main_v26 main_c_9
  let main_v28 : IVec S_ 1 := andi main_v23 main_v27
  let main_v29 : FVec F S96 .f32 := Host.absf main_arg6
  let main_cst_10 : FVec F S_ .f32 := constant S_ .f32 0x7F800000#32
  let main_v30 : FVec F S96 .f32 := broadcastInDim S96 ![] bcast_S_S96 main_cst_10
  let main_v31 : IVec S96 1 := cmpf .olt main_v29 main_v30
  let main_c_11 : IVec S_ 1 := constantI S_ 1 1#1
  let main_v32 : IVec S_ 1 := (fun x v => Host.reduce IntOp.andi x v reducesTo_S96_S_d0 h_S_) main_v31 main_c_11
  let main_v33 : IVec S_ 1 := andi main_v28 main_v32
  main_v33

def fn {F : FTy → Type} [FloatOps F] (main_arg0 : FVec F S2x4096x4096 .f32) (main_arg1 : FVec F S2x4096x32 .f32) (main_arg2 : FVec F S1x1x32 .f32) (main_arg3 : FVec F S32x96 .f32) (main_arg4 : FVec F S32x96 .f32) (main_arg5 : FVec F S96 .f32) (main_arg6 : FVec F S96 .f32) : IVec S_ 1 :=
  let main_v0 : FVec F S2x4096x4096 .f32 := Host.absf main_arg0
  let main_cst : FVec F S_ .f32 := constant S_ .f32 0x7F800000#32
  let main_v1 : FVec F S2x4096x4096 .f32 := broadcastInDim S2x4096x4096 ![] bcast_S_S2x4096x4096 main_cst
  let main_v2 : IVec S2x4096x4096 1 := cmpf .olt main_v0 main_v1
  let main_c : IVec S_ 1 := constantI S_ 1 1#1
  let main_v3 : IVec S_ 1 := (fun x v => Host.reduce IntOp.andi x v reducesTo_S2x4096x4096_S_d0_1_2 h_S_) main_v2 main_c
  let main_v4 : FVec F S2x4096x32 .f32 := Host.absf main_arg1
  let main_cst_0 : FVec F S_ .f32 := constant S_ .f32 0x7F800000#32
  let main_v5 : FVec F S2x4096x32 .f32 := broadcastInDim S2x4096x32 ![] bcast_S_S2x4096x32 main_cst_0
  let main_v6 : IVec S2x4096x32 1 := cmpf .olt main_v4 main_v5
  let main_c_1 : IVec S_ 1 := constantI S_ 1 1#1
  let main_v7 : IVec S_ 1 := (fun x v => Host.reduce IntOp.andi x v reducesTo_S2x4096x32_S_d0_1_2 h_S_) main_v6 main_c_1
  let main_v8 : IVec S_ 1 := andi main_v3 main_v7
  let main_v9 : FVec F S1x1x32 .f32 := Host.absf main_arg2
  let main_cst_2 : FVec F S_ .f32 := constant S_ .f32 0x7F800000#32
  let main_v10 : FVec F S1x1x32 .f32 := broadcastInDim S1x1x32 ![] bcast_S_S1x1x32 main_cst_2
  let main_v11 : IVec S1x1x32 1 := cmpf .olt main_v9 main_v10
  let main_c_3 : IVec S_ 1 := constantI S_ 1 1#1
  let main_v12 : IVec S_ 1 := (fun x v => Host.reduce IntOp.andi x v reducesTo_S1x1x32_S_d0_1_2 h_S_) main_v11 main_c_3
  let main_v13 : IVec S_ 1 := andi main_v8 main_v12
  let main_v14 : FVec F S32x96 .f32 := Host.absf main_arg3
  let main_cst_4 : FVec F S_ .f32 := constant S_ .f32 0x7F800000#32
  let main_v15 : FVec F S32x96 .f32 := broadcastInDim S32x96 ![] bcast_S_S32x96 main_cst_4
  let main_v16 : IVec S32x96 1 := cmpf .olt main_v14 main_v15
  fn_part1 (F := F) main_arg4 main_arg5 main_arg6 main_v13 main_v16
-- ==== Kernel.lean ====
abbrev S2x4096x4096 : Shape := ⟨3, ![2, 4096, 4096]⟩
abbrev S2x4096x32 : Shape := ⟨3, ![2, 4096, 32]⟩
abbrev S1x1x32 : Shape := ⟨3, ![1, 1, 32]⟩
abbrev S32x96 : Shape := ⟨2, ![32, 96]⟩
abbrev S96 : Shape := ⟨1, ![96]⟩
abbrev S1x32 : Shape := ⟨2, ![1, 32]⟩
abbrev S1x96 : Shape := ⟨2, ![1, 96]⟩
abbrev S1x512x4096 : Shape := ⟨3, ![1, 512, 4096]⟩
abbrev S1x4096x32 : Shape := ⟨3, ![1, 4096, 32]⟩
abbrev S1x512x32 : Shape := ⟨3, ![1, 512, 32]⟩
abbrev S512x4096 : Shape := ⟨2, ![512, 4096]⟩
abbrev S4096x32 : Shape := ⟨2, ![4096, 32]⟩
abbrev S512x32 : Shape := ⟨2, ![512, 32]⟩
abbrev S32 : Shape := ⟨1, ![32]⟩
abbrev S512x96 : Shape := ⟨2, ![512, 96]⟩

abbrev nBuf : Space → Nat
  | .hbm => 11
  | .vmem => 13
  | .smem => 0
  | _ => 0

abbrev bufTy : (tb : Table) → Fin (tcTables nBuf tb) → BufTy
  | .hbm, ⟨0, _⟩ => ⟨S2x4096x4096, .f32⟩
  | .hbm, ⟨1, _⟩ => ⟨S2x4096x32, .f32⟩
  | .hbm, ⟨2, _⟩ => ⟨S1x1x32, .f32⟩
  | .hbm, ⟨3, _⟩ => ⟨S32x96, .f32⟩
  | .hbm, ⟨4, _⟩ => ⟨S32x96, .f32⟩
  | .hbm, ⟨5, _⟩ => ⟨S96, .f32⟩
  | .hbm, ⟨6, _⟩ => ⟨S96, .f32⟩
  | .hbm, ⟨7, _⟩ => ⟨S1x32, .f32⟩
  | .hbm, ⟨8, _⟩ => ⟨S1x96, .f32⟩
  | .hbm, ⟨9, _⟩ => ⟨S1x96, .f32⟩
  | .hbm, ⟨10, _⟩ => ⟨S2x4096x32, .f32⟩
  | .local _ .vmem, ⟨0, _⟩ => ⟨S1x512x4096, .f32⟩
  | .local _ .vmem, ⟨1, _⟩ => ⟨S1x512x4096, .f32⟩
  | .local _ .vmem, ⟨2, _⟩ => ⟨S1x4096x32, .f32⟩
  | .local _ .vmem, ⟨3, _⟩ => ⟨S1x4096x32, .f32⟩
  | .local _ .vmem, ⟨4, _⟩ => ⟨S1x512x32, .f32⟩
  | .local _ .vmem, ⟨5, _⟩ => ⟨S1x512x32, .f32⟩
  | .local _ .vmem, ⟨6, _⟩ => ⟨S1x32, .f32⟩
  | .local _ .vmem, ⟨7, _⟩ => ⟨S32x96, .f32⟩
  | .local _ .vmem, ⟨8, _⟩ => ⟨S32x96, .f32⟩
  | .local _ .vmem, ⟨9, _⟩ => ⟨S1x96, .f32⟩
  | .local _ .vmem, ⟨10, _⟩ => ⟨S1x96, .f32⟩
  | .local _ .vmem, ⟨11, _⟩ => ⟨S1x512x32, .f32⟩
  | .local _ .vmem, ⟨12, _⟩ => ⟨S1x512x32, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S32x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x96 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  shapeCasts_S1x1x32_S1x32 : S1x1x32.ShapeCasts S1x32
  shapeCasts_S96_S1x96 : S96.ShapeCasts S1x96
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  inb_S1x4096x32_S1x4096x32_0_0_0 : ∀ a, (![0, 0, 0] : Fin 3 → Nat) a + S1x4096x32.size a ≤ S1x4096x32.size a
  h_S1x4096x32 : 0 < S1x4096x32.numel
  shapeCasts_S1x4096x32_S4096x32 : S1x4096x32.ShapeCasts S4096x32
  inb_S1x512x32_S1x512x32_0_0_0 : ∀ a, (![0, 0, 0] : Fin 3 → Nat) a + S1x512x32.size a ≤ S1x512x32.size a
  h_S1x512x32 : 0 < S1x512x32.numel
  shapeCasts_S1x512x32_S512x32 : S1x512x32.ShapeCasts S512x32
  inb_S1x32_S1x32_0_0 : ∀ a, (![0, 0] : Fin 2 → Nat) a + S1x32.size a ≤ S1x32.size a
  h_S1x32 : 0 < S1x32.numel
  shapeCasts_S1x32_S32 : S1x32.ShapeCasts S32
  shapeCasts_S32_S1x32 : S32.ShapeCasts S1x32
  broadcasts_S1x32_S512x32 : S1x32.Broadcasts S512x32
  inb_S32x96_S32x96_0_0 : ∀ a, (![0, 0] : Fin 2 → Nat) a + S32x96.size a ≤ S32x96.size a
  h_S32x96 : 0 < S32x96.numel
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S512x96 : S1x96.Broadcasts S512x96
  slices_S512x96_o0_0_S512x32 : S512x96.Slices ![0, 0] S512x32
  slices_S512x96_o0_32_S512x32 : S512x96.Slices ![0, 32] S512x32
  slices_S512x96_o0_64_S512x32 : S512x96.Slices ![0, 64] S512x32
  shapeCasts_S512x32_S1x512x32 : S512x32.ShapeCasts S1x512x32
  dot_S512x4096_S4096x32_S512x32_1_0_0_1_n_n_wf : DotDims.WF S512x4096 S4096x32 S512x32 [1] [0] [0] [1] [] []
  dot_S512x32_S32x96_S512x96_1_0_0_1_n_n_wf : DotDims.WF S512x32 S32x96 S512x96 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x4096.size a ≤ S2x4096x4096.size a
  hwx0_0 : ∀ i : grid0.Coords, EltTy.bits .f32 = 32 ∨ (Rect.block (s := S2x4096x4096) S1x512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x32.size a ≤ S2x4096x32.size a
  hwx0_1 : ∀ i : grid0.Coords, EltTy.bits .f32 = 32 ∨ (Rect.block (s := S2x4096x32) S1x4096x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x32.size a ≤ S2x4096x32.size a
  hwx0_2 : ∀ i : grid0.Coords, EltTy.bits .f32 = 32 ∨ (Rect.block (s := S2x4096x32) S1x512x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x96.size a ≤ S32x96.size a
  hwx0_4 : ∀ i : grid0.Coords, EltTy.bits .f32 = 32 ∨ (Rect.block (s := S32x96) S32x96.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x96.size a ≤ S32x96.size a
  hwx0_5 : ∀ i : grid0.Coords, EltTy.bits .f32 = 32 ∨ (Rect.block (s := S32x96) S32x96.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x96.size a ≤ S1x96.size a
  hwx0_6 : ∀ i : grid0.Coords, EltTy.bits .f32 = 32 ∨ (Rect.block (s := S1x96) S1x96.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x96.size a ≤ S1x96.size a
  hwx0_7 : ∀ i : grid0.Coords, EltTy.bits .f32 = 32 ∨ (Rect.block (s := S1x96) S1x96.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x512x32.size a ≤ S2x4096x32.size a
  hwx0_8 : ∀ i : grid0.Coords, EltTy.bits .f32 = 32 ∨ (Rect.block (s := S2x4096x32) S1x512x32.size (cc0_transform_8 i) (hinb0_8 i)).WholeWords (EltTy.packing .f32)

variable [Facts₀]

def dot_S512x4096_S4096x32_S512x32_1_0_0_1_n_n : DotDims S512x4096 S4096x32 S512x32 where
  lhsContracting := [1]
  rhsContracting := [0]
  lhsNonContracting := [0]
  rhsNonContracting := [1]
  lhsBatch := []
  rhsBatch := []
  wf := dot_S512x4096_S4096x32_S512x32_1_0_0_1_n_n_wf
def dot_S512x32_S32x96_S512x96_1_0_0_1_n_n : DotDims S512x32 S32x96 S512x96 where
  lhsContracting := [1]
  rhsContracting := [0]
  lhsNonContracting := [0]
  rhsNonContracting := [1]
  lhsBatch := []
  rhsBatch := []
  wf := dot_S512x32_S32x96_S512x96_1_0_0_1_n_n_wf

abbrev win0_0 : Pipeline.Window sig grid0 :=
  Pipeline.Window.ofSpec (Memref.whole main_arg0) S1x512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4096x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x512x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S32x96.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S32x96.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v1) S1x96.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v2) S1x96.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0) S1x512x32.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S2x4096x4096 : Shape := ⟨3, ![2, 4096, 4096]⟩
abbrev S2x4096x32 : Shape := ⟨3, ![2, 4096, 32]⟩
abbrev S1x1x32 : Shape := ⟨3, ![1, 1, 32]⟩
abbrev S32x96 : Shape := ⟨2, ![32, 96]⟩
abbrev S96 : Shape := ⟨1, ![96]⟩
abbrev S8192x32 : Shape := ⟨2, ![8192, 32]⟩
abbrev S8192x96 : Shape := ⟨2, ![8192, 96]⟩
abbrev S1x96 : Shape := ⟨2, ![1, 96]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S2x4096x32, .f32⟩
  | .hbm, ⟨2, _⟩ => ⟨S1x1x32, .f32⟩
  | .hbm, ⟨3, _⟩ => ⟨S32x96, .f32⟩
  | .hbm, ⟨4, _⟩ => ⟨S32x96, .f32⟩
  | .hbm, ⟨5, _⟩ => ⟨S96, .f32⟩
  | .hbm, ⟨6, _⟩ => ⟨S96, .f32⟩
  | .hbm, ⟨7, _⟩ => ⟨S2x4096x32, .f32⟩
  | .hbm, ⟨8, _⟩ => ⟨S2x4096x32, .f32⟩
  | .hbm, ⟨9, _⟩ => ⟨S2x4096x32, .f32⟩
  | .hbm, ⟨10, _⟩ => ⟨S8192x32, .f32⟩
  | .hbm, ⟨11, _⟩ => ⟨S8192x32, .f32⟩
  | .hbm, ⟨12, _⟩ => ⟨S8192x96, .f32⟩
  | .hbm, ⟨13, _⟩ => ⟨S1x96, .f32⟩
  | .hbm, ⟨14, _⟩ => ⟨S8192x96, .f32⟩
  | .hbm, ⟨15, _⟩ => ⟨S8192x96, .f32⟩
  | .hbm, ⟨16, _⟩ => ⟨S8192x96, .f32⟩
  | .hbm, ⟨17, _⟩ => ⟨S1x96, .f32⟩
  | .hbm, ⟨18, _⟩ => ⟨S8192x96, .f32⟩
  | .hbm, ⟨19, _⟩ => ⟨S8192x96, .f32⟩
  | .hbm, ⟨20, _⟩ => ⟨S8192x32, .f32⟩
  | .hbm, ⟨21, _⟩ => ⟨S8192x32, .f32⟩
  | .hbm, ⟨22, _⟩ => ⟨S8192x32, .f32⟩
  | .hbm, ⟨23, _⟩ => ⟨S8192x32, .f32⟩
  | .hbm, ⟨24, _⟩ => ⟨S8192x32, .f32⟩
  | .hbm, ⟨25, _⟩ => ⟨S8192x32, .f32⟩
  | .hbm, ⟨26, _⟩ => ⟨S8192x32, .f32⟩
  | .hbm, ⟨27, _⟩ => ⟨S8192x32, .f32⟩
  | .hbm, ⟨28, _⟩ => ⟨S8192x32, .f32⟩
  | .hbm, ⟨29, _⟩ => ⟨S_, .f32⟩
  | .hbm, ⟨30, _⟩ => ⟨S8192x32, .f32⟩
  | .hbm, ⟨31, _⟩ => ⟨S8192x32, .f32⟩
  | .hbm, ⟨32, _⟩ => ⟨S_, .f32⟩
  | .hbm, ⟨33, _⟩ => ⟨S8192x32, .f32⟩
  | .hbm, ⟨34, _⟩ => ⟨S8192x32, .f32⟩
  | .hbm, ⟨35, _⟩ => ⟨S8192x32, .f32⟩
  | .hbm, ⟨36, _⟩ => ⟨S8192x32, .f32⟩
  | .hbm, ⟨37, _⟩ => ⟨S8192x32, .f32⟩
  | .hbm, ⟨38, _⟩ => ⟨S_, .f32⟩
  | .hbm, ⟨39, _⟩ => ⟨S8192x32, .f32⟩
  | .hbm, ⟨40, _⟩ => ⟨S8192x32, .f32⟩
  | .hbm, ⟨41, _⟩ => ⟨S_, .f32⟩
  | .hbm, ⟨42, _⟩ => ⟨S8192x32, .f32⟩
  | .hbm, ⟨43, _⟩ => ⟨S8192x32, .f32⟩
  | .hbm, ⟨44, _⟩ => ⟨S8192x32, .f32⟩
  | .hbm, ⟨45, _⟩ => ⟨S8192x32, .f32⟩
  | .hbm, ⟨46, _⟩ => ⟨S8192x32, .f32⟩
  | .hbm, ⟨47, _⟩ => ⟨S8192x32, .f32⟩
  | .hbm, ⟨48, _⟩ => ⟨S_, .f32⟩
  | .hbm, ⟨49, _⟩ => ⟨S8192x32, .f32⟩
  | .hbm, ⟨50, _⟩ => ⟨S8192x32, .f32⟩
  | .hbm, ⟨51, _⟩ => ⟨S8192x32, .f32⟩
  | .hbm, ⟨52, _⟩ => ⟨S8192x32, .f32⟩
  | .hbm, ⟨53, _⟩ => ⟨S2x4096x32, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst : Ref sig .tc := ⟨.hbm, 29, rfl⟩
abbrev main_v22 : Ref sig .tc := ⟨.hbm, 30, rfl⟩
abbrev main_v23 : Ref sig .tc := ⟨.hbm, 31, rfl⟩
abbrev main_cst_0 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_1 : Ref sig .tc := ⟨.hbm, 38, rfl⟩
abbrev main_v29 : Ref sig .tc := ⟨.hbm, 39, rfl⟩
abbrev main_v30 : Ref sig .tc := ⟨.hbm, 40, rfl⟩
abbrev main_cst_2 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_3 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩

abbrev nD : Nat := 1
abbrev τ : Topo := Topo.v7x

variable {F : FTy → Type} [FloatOps F]

class Facts₀ : Prop where
  bcast_S1x1x32_S2x4096x32_0_1_2 : S1x1x32.BroadcastsInDim S2x4096x32 (![0, 1, 2] : Fin 3 → Fin S2x4096x32.rank)
  shapeCasts_S2x4096x32_S8192x32 : S2x4096x32.ShapeCasts S8192x32
  bcast_S96_S1x96_1 : S96.BroadcastsInDim S1x96 (![1] : Fin 1 → Fin S1x96.rank)
  bcast_S1x96_S8192x96_0_1 : S1x96.BroadcastsInDim S8192x96 (![0, 1] : Fin 2 → Fin S8192x96.rank)
  slices_S8192x96_S8192x32_0_0 : S8192x96.Slices ![0, 0] S8192x32
  slices_S8192x96_S8192x32_0_32 : S8192x96.Slices ![0, 32] S8192x32
  slices_S8192x96_S8192x32_0_64 : S8192x96.Slices ![0, 64] S8192x32
  bcast_S_S8192x32 : S_.BroadcastsInDim S8192x32 (![] : Fin 0 → Fin S8192x32.rank)
  shapeCasts_S8192x32_S2x4096x32 : S8192x32.ShapeCasts S2x4096x32
  dot_S2x4096x4096_S2x4096x32_S2x4096x32_2_1_1_2_0_0_wf : DotDims.WF S2x4096x4096 S2x4096x32 S2x4096x32 [2] [1] [1] [2] [0] [0]
  dot_S8192x32_S32x96_S8192x96_1_0_0_1_n_n_wf : DotDims.WF S8192x32 S32x96 S8192x96 [1] [0] [0] [1] [] []

variable [Facts₀]

def dot_S2x4096x4096_S2x4096x32_S2x4096x32_2_1_1_2_0_0 : DotDims S2x4096x4096 S2x4096x32 S2x4096x32 where
  lhsContracting := [2]
  rhsContracting := [1]
  lhsNonContracting := [1]
  rhsNonContracting := [2]
  lhsBatch := [0]
  rhsBatch := [0]
  wf := dot_S2x4096x4096_S2x4096x32_S2x4096x32_2_1_1_2_0_0_wf
def dot_S8192x32_S32x96_S8192x96_1_0_0_1_n_n : DotDims S8192x32 S32x96 S8192x96 where
  lhsContracting := [1]
  rhsContracting := [0]
  lhsNonContracting := [0]
  rhsNonContracting := [1]
  lhsBatch := []
  rhsBatch := []
  wf := dot_S8192x32_S32x96_S8192x96_1_0_0_1_n_n_wf

class Facts : Prop extends Facts₀ where

variable [Facts]
-- ==== Proof.KernelRegion.lean ====
/-
  The run of the program's one kernel region, by hand.

  The region's nine windows are staged by the pipeline; two of them (the annotations as the aggregation's right operand
  and the annotations as the hidden state) are windows of ONE array, which the launch therefore deals to them in two
  half shares. The body reads its eight input blocks, stores one output block and keeps nothing between grid points, so
  the region invariant is empty and the proof data name, point by point, each input window's block and the stored
  block as a function of the input blocks.
-/
import proofs.«103752_g76081050681489_cont_9to1_m_207_5_alg».proof.Proof.Gen.Kernel.Launch
import proofs.«103752_g76081050681489_cont_9to1_m_207_5_alg».proof.Proof.Gen.Kernel.Skeleton
import proofs.«103752_g76081050681489_cont_9to1_m_207_5_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- What core `c`'s buffers hold when the region is entered: the launch contents after the three reshapes (the bias
    and the two gate biases as rows). -/
abbrev atEntry (c : Dev nD) (b : Ref sig .tc) : Buf (Elt F) ((c : Thread nD τ).loc b) :=
  StableHlo.after hostOps0 (fun b => m (c, b)) b

/-- None of the three reshapes allocates. -/
theorem hostOps0_fresh : (hostOps0 : List (HloOp τ sig (Elt F))).Forall fun op => op.fresh = ∅ := by
  simp only [List.Forall]; repeat' constructor

/-- The program is the three reshapes, then the region. -/
theorem upToRegion (𝒱₀ : Variants) :
    Pipeline.HMain (Ix := Unit) (Name := ℕ) (U := UR sig nD τ) (Lvl := ℕ) cfgs 0 defs₀ 𝒱₀ m (main (F := F)) (atEntry m) :=
  Pipeline.hmain_prefix cfgs 0 defs₀ 𝒱₀ m main hostOps0 hostOps0_sub hostOps0_fresh main_chain

/-! ## The windows' blocks, and what the body finds in an input window's buffer -/

/-- Window `w`'s block of its array at grid point `t`, the array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

section Found

variable {c : Dev nD} (dat : Dat τ (Elt F) Unit ℕ (UR sig nD τ) ℕ cfg0 c)
  (hA : ∀ w, dat.A w = atEntry m c (Pipeline.arrRef spec0 w))

/-- An input window whose buffer the body leaves as it found it holds its block at every point, fetched there or not:
    where the pipeline does not fetch, the block index has not moved since the last fetch. -/
local macro "found_block " w:term : term =>
  `(fun hafter t d => (Dat.before_in_eq_fetched dat $w rfl (fun _ => rfl) (fun _ _ _ => rfl)
      (fun t => by rw [hafter]; unfold Dat.blockOf blockAt; rw [hA]; try rfl) t d).trans
      (by unfold Dat.fetched Dat.blockOf blockAt; rw [hA]; try rfl))

include hA in
theorem found0 : (∀ t, dat.after 0 t = blockAt m c 0 t) → ∀ t d, dat.before 0 t d = blockAt m c 0 t := found_block 0
include hA in
theorem found1 : (∀ t, dat.after 1 t = blockAt m c 1 t) → ∀ t d, dat.before 1 t d = blockAt m c 1 t := found_block 1
include hA in
theorem found2 : (∀ t, dat.after 2 t = blockAt m c 2 t) → ∀ t d, dat.before 2 t d = blockAt m c 2 t := found_block 2
include hA in
theorem found3 : (∀ t, dat.after 3 t = blockAt m c 3 t) → ∀ t d, dat.before 3 t d = blockAt m c 3 t := found_block 3
include hA in
theorem found4 : (∀ t, dat.after 4 t = blockAt m c 4 t) → ∀ t d, dat.before 4 t d = blockAt m c 4 t := found_block 4
include hA in
theorem found5 : (∀ t, dat.after 5 t = blockAt m c 5 t) → ∀ t d, dat.before 5 t d = blockAt m c 5 t := found_block 5
include hA in
theorem found6 : (∀ t, dat.after 6 t = blockAt m c 6 t) → ∀ t d, dat.before 6 t d = blockAt m c 6 t := found_block 6
include hA in
theorem found7 : (∀ t, dat.after 7 t = blockAt m c 7 t) → ∀ t d, dat.before 7 t d = blockAt m c 7 t := found_block 7

end Found

/-! ## The body -/

/-- The whole of each buffer's shape, as the rectangle the body's loads and its store go through. -/
abbrev allAdj : Rect S1x512x4096 := Rect.unit (s := S1x512x4096) ![0, 0, 0] S1x512x4096.size inb_S1x512x4096_S1x512x4096_0_0_0
abbrev allAnn : Rect S1x4096x32 := Rect.unit (s := S1x4096x32) ![0, 0, 0] S1x4096x32.size inb_S1x4096x32_S1x4096x32_0_0_0
abbrev allRows : Rect S1x512x32 := Rect.unit (s := S1x512x32) ![0, 0, 0] S1x512x32.size inb_S1x512x32_S1x512x32_0_0_0
abbrev allBias : Rect S1x32 := Rect.unit (s := S1x32) ![0, 0] S1x32.size inb_S1x32_S1x32_0_0
abbrev allGate : Rect S32x96 := Rect.unit (s := S32x96) ![0, 0] S32x96.size inb_S32x96_S32x96_0_0
abbrev allGateBias : Rect S1x96 := Rect.unit (s := S1x96) ![0, 0] S1x96.size inb_S1x96_S1x96_0_0

/-- What the body's one store leaves in the output window's buffer, from what the eight input buffers read: the
    adjacency slab `a`, the annotations `n`, the hidden-state rows `h`, the bias row `b`, the two gate matrices
    `w` `u` and their bias rows `bw` `bu`. -/
def storedBlock (a : Vec F S1x512x4096 .f32) (n : Vec F S1x4096x32 .f32) (h : Vec F S1x512x32 .f32) (b : Vec F S1x32 .f32)
    (w u : Vec F S32x96 .f32) (bw bu : Vec F S1x96 .f32) : Vec F S1x512x32 .f32 :=
  View.canon [⟨allRows, k0_pay1 (k0_pay2 (View.ld h allRows))
    (k0_pay5 (View.ld a allAdj) (View.ld n allAnn) (View.ld h allRows) (View.ld b allBias) (View.ld w allGate) (View.ld bw allGateBias) (View.ld u allGate) (View.ld bu allGateBias))
    (k0_pay6 (View.ld a allAdj) (View.ld n allAnn) (View.ld h allRows) (View.ld b allBias) (View.ld w allGate) (View.ld bw allGateBias) (View.ld u allGate) (View.ld bu allGateBias))⟩]

/-- The one store is of the whole block. -/
theorem stored_covers (p : Vec F S1x512x32 .f32) (y : S1x512x32.Idx) :
    ∃ pc ∈ ([⟨allRows, p⟩] : List (View.Piece (Elt F) S1x512x32 .f32)), y ∈ pc.1.set :=
  View.cover_of_tiled [⟨allRows, p⟩] S1x512x32.size (by rfl) y

set_option maxHeartbeats 1000000 in
/-- The body, on whole buffers — the eight inputs' at contents that read `a … bu`, the output's at anything — runs to a
    state with the inputs' buffers as they were and the output's at `storedBlock` of what the inputs read. -/
theorem body_runs (c : Dev nD) (E : Set ℕ) (i : grid0.Coords)
    (arg2 : Memref sig .tc .vmem S1x512x4096 .f32) (harg2 : arg2.IsWhole) (arg3 : Memref sig .tc .vmem S1x4096x32 .f32) (harg3 : arg3.IsWhole)
    (arg4 : Memref sig .tc .vmem S1x512x32 .f32) (harg4 : arg4.IsWhole) (arg5 : Memref sig .tc .vmem S1x32 .f32) (harg5 : arg5.IsWhole)
    (arg6 : Memref sig .tc .vmem S32x96 .f32) (harg6 : arg6.IsWhole) (arg7 : Memref sig .tc .vmem S32x96 .f32) (harg7 : arg7.IsWhole)
    (arg8 : Memref sig .tc .vmem S1x96 .f32) (harg8 : arg8.IsWhole) (arg9 : Memref sig .tc .vmem S1x96 .f32) (harg9 : arg9.IsWhole)
    (arg10 : Memref sig .tc .vmem S1x512x32 .f32) (harg10 : arg10.IsWhole)
    (a : Vec F S1x512x4096 .f32) (n : Vec F S1x4096x32 .f32) (h : Vec F S1x512x32 .f32) (b : Vec F S1x32 .f32)
    (w u : Vec F S32x96 .f32) (bw bu : Vec F S1x96 .f32) (K : PUnit → sProp 𝕄) :
    iprop(owns (c : Thread nD τ) arg2 fullShare a ∗ owns (c : Thread nD τ) arg3 fullShare n ∗ owns (c : Thread nD τ) arg4 fullShare h
        ∗ owns (c : Thread nD τ) arg5 fullShare b ∗ owns (c : Thread nD τ) arg6 fullShare w ∗ owns (c : Thread nD τ) arg7 fullShare u
        ∗ owns (c : Thread nD τ) arg8 fullShare bw ∗ owns (c : Thread nD τ) arg9 fullShare bu ∗ (∃ d, owns (c : Thread nD τ) arg10 fullShare d)
        ∗ (iprop(owns (c : Thread nD τ) arg2 fullShare a ∗ owns (c : Thread nD τ) arg3 fullShare n ∗ owns (c : Thread nD τ) arg4 fullShare h
            ∗ owns (c : Thread nD τ) arg5 fullShare b ∗ owns (c : Thread nD τ) arg6 fullShare w ∗ owns (c : Thread nD τ) arg7 fullShare u
            ∗ owns (c : Thread nD τ) arg8 fullShare bw ∗ owns (c : Thread nD τ) arg9 fullShare bu
            ∗ owns (c : Thread nD τ) arg10 fullShare (storedBlock a n h b w u bw bu)) -∗ K ⟨⟩))
      ⊢ wp frame (wpE (defs₀ (F := F)) Variants.none c none) E
          (cc0__ggc_body i arg2 harg2 arg3 harg3 arg4 harg4 arg5 harg5 arg6 harg6 arg7 harg7 arg8 harg8 arg9 harg9 arg10 harg10) K := by
  simp only [cc0__ggc_body_eq_skeleton]; unfold cc0__ggc_body_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf2 hf3 hf4 hf5 hf6 hf7 hf8 hf9
  sl_exec
  sl_step
  iapply Hk
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]; · iexists f8; isplitr; · ipureintro; rfl
                  iexact H8
  isplitl [H9]; · iexists f9; isplitr; · ipureintro; rfl
                  iexact H9
  iexists _; isplitr
  swap; · iexact H10
  ipureintro
  exact View.read_writes_eq_canon _ _ _ (stored_covers _)

/-! ## The proof data -/

/-- The pipeline's proof data on core `c`: the arrays as the region finds them; each input window's buffer left at its
    block and the output window's at `storedBlock` of the eight input blocks; nothing kept between points (the program
    has no scratch buffer); the annotations' array dealt in two halves to its two windows, every other array held whole;
    nothing owed. -/
def dats (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => blockAt m c 7 t
    | ⟨8, _⟩ => storedBlock (blockAt m c 0 t) (blockAt m c 1 t) (blockAt m c 2 t) (blockAt m c 3 t) (blockAt m c 4 t)
        (blockAt m c 5 t) (blockAt m c 6 t) (blockAt m c 7 t)
  Φ _ := Pipeline.scopedRest (Ix := Unit) (Name := ℕ) (U := UR sig nD τ) (Lvl := ℕ) (Val := Elt F) spec0 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
    | ⟨7, _⟩ => fullShare
    | ⟨8, _⟩ => fullShare
  owed _ := 0

theorem dats_A (c : Dev nD) (w : Fin cfg0.W) : (dats m 0 c).A w = atEntry m c (Pipeline.arrRef spec0 w) := by
  dsimp only [dats]

theorem left0 (c : Dev nD) (t : Fin cfg0.N) : (dats m 0 c).after 0 t = blockAt m c 0 t := by dsimp only [dats]
theorem left1 (c : Dev nD) (t : Fin cfg0.N) : (dats m 0 c).after 1 t = blockAt m c 1 t := by dsimp only [dats]
theorem left2 (c : Dev nD) (t : Fin cfg0.N) : (dats m 0 c).after 2 t = blockAt m c 2 t := by dsimp only [dats]
theorem left3 (c : Dev nD) (t : Fin cfg0.N) : (dats m 0 c).after 3 t = blockAt m c 3 t := by dsimp only [dats]
theorem left4 (c : Dev nD) (t : Fin cfg0.N) : (dats m 0 c).after 4 t = blockAt m c 4 t := by dsimp only [dats]
theorem left5 (c : Dev nD) (t : Fin cfg0.N) : (dats m 0 c).after 5 t = blockAt m c 5 t := by dsimp only [dats]
theorem left6 (c : Dev nD) (t : Fin cfg0.N) : (dats m 0 c).after 6 t = blockAt m c 6 t := by dsimp only [dats]
theorem left7 (c : Dev nD) (t : Fin cfg0.N) : (dats m 0 c).after 7 t = blockAt m c 7 t := by dsimp only [dats]
theorem left8 (c : Dev nD) (t : Fin cfg0.N) : (dats m 0 c).after 8 t
    = storedBlock (blockAt m c 0 t) (blockAt m c 1 t) (blockAt m c 2 t) (blockAt m c 3 t) (blockAt m c 4 t)
        (blockAt m c 5 t) (blockAt m c 6 t) (blockAt m c 7 t) := by dsimp only [dats]

/-! ## The body at a grid point -/

/-- At every point the body, called on the windows' current buffers — each input's holding its block —, leaves the
    inputs' buffers as they were and the output's at the stored block; the (empty) invariant and what the core owes
    pass through untouched. -/
theorem point_runs (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare ((dats m 0 c).before 5 t d))
      ∗ (∃ d, owns (c : Thread nD τ) (st0_6 t) fullShare ((dats m 0 c).before 6 t d))
      ∗ (∃ d, owns (c : Thread nD τ) (st0_7 t) fullShare ((dats m 0 c).before 7 t d))
      ∗ (∃ d, owns (c : Thread nD τ) (st0_8 t) fullShare ((dats m 0 c).before 8 t d)))
    ⊢ wp frame (wpE (defs₀ (F := F)) Variants.none c none) Set.univ (bodyAt0 t) (fun _ =>
      iprop((dats m 0 c).Φ t.succ ∗ (dats m 0 c).owesAt () t.succ
        ∗ owns (c : Thread nD τ) (st0_0 t) fullShare ((dats m 0 c).after 0 t)
        ∗ owns (c : Thread nD τ) (st0_1 t) fullShare ((dats m 0 c).after 1 t)
        ∗ owns (c : Thread nD τ) (st0_2 t) fullShare ((dats m 0 c).after 2 t)
        ∗ owns (c : Thread nD τ) (st0_3 t) fullShare ((dats m 0 c).after 3 t)
        ∗ owns (c : Thread nD τ) (st0_4 t) fullShare ((dats m 0 c).after 4 t)
        ∗ owns (c : Thread nD τ) (st0_5 t) fullShare ((dats m 0 c).after 5 t)
        ∗ owns (c : Thread nD τ) (st0_6 t) fullShare ((dats m 0 c).after 6 t)
        ∗ owns (c : Thread nD τ) (st0_7 t) fullShare ((dats m 0 c).after 7 t)
        ∗ owns (c : Thread nD τ) (st0_8 t) fullShare ((dats m 0 c).after 8 t))) := by
  unfold bodyAt0
  simp only [found0 m (dats m 0 c) (dats_A m c) (left0 m c), found1 m (dats m 0 c) (dats_A m c) (left1 m c),
    found2 m (dats m 0 c) (dats_A m c) (left2 m c), found3 m (dats m 0 c) (dats_A m c) (left3 m c),
    found4 m (dats m 0 c) (dats_A m c) (left4 m c), found5 m (dats m 0 c) (dats_A m c) (left5 m c),
    found6 m (dats m 0 c) (dats_A m c) (left6 m c), found7 m (dats m 0 c) (dats_A m c) (left7 m c)]
  rw [show (dats m 0 c).Φ t.succ = (dats m 0 c).Φ t.castSucc from rfl,
    show (dats m 0 c).owesAt () t.succ = (dats m 0 c).owesAt () t.castSucc from rfl,
    left0, left1, left2, left3, left4, left5, left6, left7, left8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_runs c Set.univ (grid0.coords t) _ _ _ _ _ _ _ _ _ _ _ _ _ _ _ _ _ _
    (blockAt m c 0 t) (blockAt m c 1 t) (blockAt m c 2 t) (blockAt m c 3 t) (blockAt m c 4 t) (blockAt m c 5 t)
    (blockAt m c 6 t) (blockAt m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline library's body obligation. -/
theorem obligation (c : Dev nD) : BodyObligation (dats (F := F) m 0 c) (defs₀ (F := F)) Variants.none () Set.univ := fun t => by
  rw [bigSep_W0, bigSep_W0]
  exact point_runs m c t

/-! ## The launch -/

/-- The buffers behind the nine windows' arrays are eight: the annotations' buffer serves two windows. -/
theorem arrayBuffers : Finset.univ.image (Pipeline.arrRef spec0)
    = [main_arg0, main_arg1, main_call0_v0, main_arg3, main_arg4, main_call0_v1, main_call0_v2, main_v0].toFinset := by decide

/-- Those eight buffers, each held whole at its entry contents, one by one. -/
theorem arrBufs_chain (c : Dev nD) :
    (Pipeline.arrBufs (Ix := Unit) (Name := ℕ) (U := UR sig nD τ) (Lvl := ℕ) spec0 c (atEntry m c) : sProp 𝕄)
      = iprop((((c : Thread nD τ).loc main_arg0) ↦{fullShare} atEntry m c main_arg0)
          ∗ (((c : Thread nD τ).loc main_arg1) ↦{fullShare} atEntry m c main_arg1)
          ∗ (((c : Thread nD τ).loc main_call0_v0) ↦{fullShare} atEntry m c main_call0_v0)
          ∗ (((c : Thread nD τ).loc main_arg3) ↦{fullShare} atEntry m c main_arg3)
          ∗ (((c : Thread nD τ).loc main_arg4) ↦{fullShare} atEntry m c main_arg4)
          ∗ (((c : Thread nD τ).loc main_call0_v1) ↦{fullShare} atEntry m c main_call0_v1)
          ∗ (((c : Thread nD τ).loc main_call0_v2) ↦{fullShare} atEntry m c main_call0_v2)
          ∗ (((c : Thread nD τ).loc main_v0) ↦{fullShare} atEntry m c main_v0)) :=
  bigSep_eq_bigSepL_of_eq [main_arg0, main_arg1, main_call0_v0, main_arg3, main_arg4, main_call0_v1, main_call0_v2, main_v0]
    arrayBuffers (by decide) _

/-- How the launch's eight array buffers, each held whole, become the nine windows' arrays: the annotations' buffer is
    split into its two half shares, one for each of its windows; every other buffer goes whole to its one window. -/
theorem deal (c : Dev nD) :
    (Pipeline.arrBufs (Ix := Unit) (Name := ℕ) (U := UR sig nD τ) (Lvl := ℕ) spec0 c (atEntry m c) : sProp 𝕄)
      ⊢ (dats m 0 c).arrays ((dats m 0 c).arrAt · 0) := by
  rw [arrBufs_chain]
  unfold Dat.arrays
  rw [bigSep_W0]
  simp only [(arr_whole0 0).set_eq_univ, (arr_whole0 1).set_eq_univ, (arr_whole0 3).set_eq_univ,
    (arr_whole0 4).set_eq_univ, (arr_whole0 5).set_eq_univ, (arr_whole0 6).set_eq_univ, (arr_whole0 7).set_eq_univ,
    (arr_whole0 8).set_eq_univ]
  rw [show (dats m 0 c).share 0 = fullShare from rfl, show (dats m 0 c).share 1 = fullShare.left from rfl,
    show (dats m 0 c).share 2 = fullShare.right from rfl, show (dats m 0 c).share 3 = fullShare from rfl,
    show (dats m 0 c).share 4 = fullShare from rfl, show (dats m 0 c).share 5 = fullShare from rfl,
    show (dats m 0 c).share 6 = fullShare from rfl, show (dats m 0 c).share 7 = fullShare from rfl,
    show (dats m 0 c).share 8 = fullShare from rfl]
  iintro ⟨Hadj, Hann, Hb, Hw, Hu, Hbw, Hbu, Hout⟩
  ihave Hann2 := (pointsTo_share (PosShare.mem_left_op_right fullShare)).1 $$ Hann
  icases Hann2 with ⟨HannL, HannR⟩
  isplitl [Hadj]; · iexact Hadj
  isplitl [HannL]; · iexact HannL
  isplitl [HannR]; · iexact HannR
  isplitl [Hb]; · iexact Hb
  isplitl [Hw]; · iexact Hw
  isplitl [Hu]; · iexact Hu
  isplitl [Hbw]; · iexact Hbw
  isplitl [Hbu]; · iexact Hbu
  iexact Hout

/-- The core's scoped buffers that are no staging buffer: what the (constant) region invariant holds. -/
abbrev scratch (c : Dev nD) : sProp 𝕄 :=
  Pipeline.scopedRest (Ix := Unit) (Name := ℕ) (U := UR sig nD τ) (Lvl := ℕ) (Val := Elt F) spec0 c

theorem scratch_in (c : Dev nD) : iprop(emp ∗ scratch (F := F) c) ⊢ scratch (F := F) c := by
  iintro ⟨-, H⟩; iexact H

theorem scratch_out (c : Dev nD) : scratch (F := F) c ⊢ iprop(emp ∗ scratch (F := F) c) := by
  iintro H; isplitr
  · iempintro
  · iexact H

set_option backward.isDefEq.respectTransparency.types false in
/-- From any memory with zero counters every weakly fair execution of the program terminates, and at the end each
    window's array holds what the proof data compute — an input its entry contents, the output those overwritten block
    by block by what the body stored — and every buffer no window stages holds what it held at the region's entry. -/
theorem run_region : θ_run defs (onTc (τ := τ) (main (F := F))) (s₀ m ρ) (Pipeline.FramePost cfgs (dats m) 0 (atEntry m)) :=
  Pipeline.θ_run_region_noSem_shared cfgs (dats m) () cellOf_inj (0 : Fin 1) winFacts₀0 emb₁ defs₀ Variants.none m ρ main
    (hbody := fun c => (obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := atEntry m) (hmain := upToRegion m Variants.none) (hsplit := deal m)
    (X := fun _ => iprop(emp)) (Y := fun _ => iprop(emp))
    (Z := fun c => Pipeline.unscopedRest (Ix := Unit) (Name := ℕ) (U := UR sig nD τ) (Lvl := ℕ) spec0 c (atEntry m c))
    (hX := fun c => by
      iintro H; isplitr
      · iempintro
      · iexact H)
    (hin := fun c => scratch_in c)
    (hout := fun c => scratch_out c)
    (QY := fun c s => ∀ b ∈ Pipeline.restRefs sig spec0, s.mem ((c.tc : Thread nD τ).loc b) = atEntry m c b)
    (hY := fun c s' => by
      iintro ⟨-, HU, HSI⟩
      unfold Pipeline.unscopedRest
      imodintro
      iapply (pointsTo_read_all (Pipeline.restRefs sig spec0) (fun b => (c.tc : Thread nD τ).loc b) (atEntry m c) s')
      isplitl [HU] <;> iassumption)
    (hQ := fun s h => h)

/-! ## What the region finds in the arrays, and the frame -/

/-- No reshape writes an argument: the region finds the seven arguments as launched. -/
theorem entry_arg0 (c : Dev nD) : atEntry m c main_arg0 = m ((c : Thread nD τ).loc main_arg0) := by
  show StableHlo.after hostOps0 (fun b => m (c, b)) (Proc.devRef .tc main_arg0) = _
  after_results
theorem entry_arg1 (c : Dev nD) : atEntry m c main_arg1 = m ((c : Thread nD τ).loc main_arg1) := by
  show StableHlo.after hostOps0 (fun b => m (c, b)) (Proc.devRef .tc main_arg1) = _
  after_results
theorem entry_arg2 (c : Dev nD) : atEntry m c main_arg2 = m ((c : Thread nD τ).loc main_arg2) := by
  show StableHlo.after hostOps0 (fun b => m (c, b)) (Proc.devRef .tc main_arg2) = _
  after_results
theorem entry_arg3 (c : Dev nD) : atEntry m c main_arg3 = m ((c : Thread nD τ).loc main_arg3) := by
  show StableHlo.after hostOps0 (fun b => m (c, b)) (Proc.devRef .tc main_arg3) = _
  after_results
theorem entry_arg4 (c : Dev nD) : atEntry m c main_arg4 = m ((c : Thread nD τ).loc main_arg4) := by
  show StableHlo.after hostOps0 (fun b => m (c, b)) (Proc.devRef .tc main_arg4) = _
  after_results
theorem entry_arg5 (c : Dev nD) : atEntry m c main_arg5 = m ((c : Thread nD τ).loc main_arg5) := by
  show StableHlo.after hostOps0 (fun b => m (c, b)) (Proc.devRef .tc main_arg5) = _
  after_results
theorem entry_arg6 (c : Dev nD) : atEntry m c main_arg6 = m ((c : Thread nD τ).loc main_arg6) := by
  show StableHlo.after hostOps0 (fun b => m (c, b)) (Proc.devRef .tc main_arg6) = _
  after_results

/-- The three rows the reshapes make: the bias and the two gate biases, each the argument with a unit axis in front. -/
theorem entry_biasRow (c : Dev nD) :
    (atEntry m c main_call0_v0 : S1x32.Idx → Elt F .f32)
      = shapeCast S1x32 (m ((c : Thread nD τ).loc main_arg2) : S1x1x32.Idx → Elt F .f32) shapeCasts_S1x1x32_S1x32 := by
  show StableHlo.after hostOps0 (fun b => m (c, b)) (Proc.devRef .tc main_call0_v0) = _
  after_results; rfl
theorem entry_inBiasRow (c : Dev nD) :
    (atEntry m c main_call0_v1 : S1x96.Idx → Elt F .f32)
      = shapeCast S1x96 (m ((c : Thread nD τ).loc main_arg5) : S96.Idx → Elt F .f32) shapeCasts_S96_S1x96 := by
  show StableHlo.after hostOps0 (fun b => m (c, b)) (Proc.devRef .tc main_call0_v1) = _
  after_results; rfl
theorem entry_recBiasRow (c : Dev nD) :
    (atEntry m c main_call0_v2 : S1x96.Idx → Elt F .f32)
      = shapeCast S1x96 (m ((c : Thread nD τ).loc main_arg6) : S96.Idx → Elt F .f32) shapeCasts_S96_S1x96 := by
  show StableHlo.after hostOps0 (fun b => m (c, b)) (Proc.devRef .tc main_call0_v2) = _
  after_results; rfl

/-- At the end of the run the seven arguments hold what they held at launch: four are input windows' arrays, never
    written; three are staged by no window and pass the region by. -/
theorem args_kept (r : PUnit × MemSt nD τ sig (Elt F)) (h : Pipeline.FramePost cfgs (dats m) 0 (atEntry m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) :=
  ⟨((h c).1 0).trans (((dats m 0 c).arrAt_in 0 rfl _).trans ((dats_A m c 0).trans (entry_arg0 m c))),
   ((h c).1 1).trans (((dats m 0 c).arrAt_in 1 rfl _).trans ((dats_A m c 1).trans (entry_arg1 m c))),
   ((h c).2 main_arg2 (Pipeline.mem_restRefs_of main_arg2 rfl (by decide))).trans (entry_arg2 m c),
   ((h c).1 4).trans (((dats m 0 c).arrAt_in 4 rfl _).trans ((dats_A m c 4).trans (entry_arg3 m c))),
   ((h c).1 5).trans (((dats m 0 c).arrAt_in 5 rfl _).trans ((dats_A m c 5).trans (entry_arg4 m c))),
   ((h c).2 main_arg5 (Pipeline.mem_restRefs_of main_arg5 rfl (by decide))).trans (entry_arg5 m c),
   ((h c).2 main_arg6 (Pipeline.mem_restRefs_of main_arg6 rfl (by decide))).trans (entry_arg6 m c)⟩

/-- The frame: the program runs to the end, nothing faults, and the arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => args_kept m r h c) (run_region m ρ)

end Cert.Kernel.Region

end
-- ==== Proof.KernelIdealRegion.lean ====
/-
  The run of the program's one kernel region, by hand.

  The region's nine windows are staged by the pipeline; two of them (the annotations as the aggregation's right operand
  and the annotations as the hidden state) are windows of ONE array, which the launch therefore deals to them in two
  half shares. The body reads its eight input blocks, stores one output block and keeps nothing between grid points, so
  the region invariant is empty and the proof data name, point by point, each input window's block and the stored
  block as a function of the input blocks.
-/
import proofs.«103752_g76081050681489_cont_9to1_m_207_5_alg».proof.Proof.Gen.KernelIdeal.Launch
import proofs.«103752_g76081050681489_cont_9to1_m_207_5_alg».proof.Proof.Gen.KernelIdeal.Skeleton
import proofs.«103752_g76081050681489_cont_9to1_m_207_5_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- What core `c`'s buffers hold when the region is entered: the launch contents after the three reshapes (the bias
    and the two gate biases as rows). -/
abbrev atEntry (c : Dev nD) (b : Ref sig .tc) : Buf (Elt F) ((c : Thread nD τ).loc b) :=
  StableHlo.after hostOps0 (fun b => m (c, b)) b

/-- None of the three reshapes allocates. -/
theorem hostOps0_fresh : (hostOps0 : List (HloOp τ sig (Elt F))).Forall fun op => op.fresh = ∅ := by
  simp only [List.Forall]; repeat' constructor

/-- The program is the three reshapes, then the region. -/
theorem upToRegion (𝒱₀ : Variants) :
    Pipeline.HMain (Ix := Unit) (Name := ℕ) (U := UR sig nD τ) (Lvl := ℕ) cfgs 0 defs₀ 𝒱₀ m (main (F := F)) (atEntry m) :=
  Pipeline.hmain_prefix cfgs 0 defs₀ 𝒱₀ m main hostOps0 hostOps0_sub hostOps0_fresh main_chain

/-! ## The windows' blocks, and what the body finds in an input window's buffer -/

/-- Window `w`'s block of its array at grid point `t`, the array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

section Found

variable {c : Dev nD} (dat : Dat τ (Elt F) Unit ℕ (UR sig nD τ) ℕ cfg0 c)
  (hA : ∀ w, dat.A w = atEntry m c (Pipeline.arrRef spec0 w))

/-- An input window whose buffer the body leaves as it found it holds its block at every point, fetched there or not:
    where the pipeline does not fetch, the block index has not moved since the last fetch. -/
local macro "found_block " w:term : term =>
  `(fun hafter t d => (Dat.before_in_eq_fetched dat $w rfl (fun _ => rfl) (fun _ _ _ => rfl)
      (fun t => by rw [hafter]; unfold Dat.blockOf blockAt; rw [hA]; try rfl) t d).trans
      (by unfold Dat.fetched Dat.blockOf blockAt; rw [hA]; try rfl))

include hA in
theorem found0 : (∀ t, dat.after 0 t = blockAt m c 0 t) → ∀ t d, dat.before 0 t d = blockAt m c 0 t := found_block 0
include hA in
theorem found1 : (∀ t, dat.after 1 t = blockAt m c 1 t) → ∀ t d, dat.before 1 t d = blockAt m c 1 t := found_block 1
include hA in
theorem found2 : (∀ t, dat.after 2 t = blockAt m c 2 t) → ∀ t d, dat.before 2 t d = blockAt m c 2 t := found_block 2
include hA in
theorem found3 : (∀ t, dat.after 3 t = blockAt m c 3 t) → ∀ t d, dat.before 3 t d = blockAt m c 3 t := found_block 3
include hA in
theorem found4 : (∀ t, dat.after 4 t = blockAt m c 4 t) → ∀ t d, dat.before 4 t d = blockAt m c 4 t := found_block 4
include hA in
theorem found5 : (∀ t, dat.after 5 t = blockAt m c 5 t) → ∀ t d, dat.before 5 t d = blockAt m c 5 t := found_block 5
include hA in
theorem found6 : (∀ t, dat.after 6 t = blockAt m c 6 t) → ∀ t d, dat.before 6 t d = blockAt m c 6 t := found_block 6
include hA in
theorem found7 : (∀ t, dat.after 7 t = blockAt m c 7 t) → ∀ t d, dat.before 7 t d = blockAt m c 7 t := found_block 7

end Found

/-! ## The body -/

/-- The whole of each buffer's shape, as the rectangle the body's loads and its store go through. -/
abbrev allAdj : Rect S1x512x4096 := Rect.unit (s := S1x512x4096) ![0, 0, 0] S1x512x4096.size inb_S1x512x4096_S1x512x4096_0_0_0
abbrev allAnn : Rect S1x4096x32 := Rect.unit (s := S1x4096x32) ![0, 0, 0] S1x4096x32.size inb_S1x4096x32_S1x4096x32_0_0_0
abbrev allRows : Rect S1x512x32 := Rect.unit (s := S1x512x32) ![0, 0, 0] S1x512x32.size inb_S1x512x32_S1x512x32_0_0_0
abbrev allBias : Rect S1x32 := Rect.unit (s := S1x32) ![0, 0] S1x32.size inb_S1x32_S1x32_0_0
abbrev allGate : Rect S32x96 := Rect.unit (s := S32x96) ![0, 0] S32x96.size inb_S32x96_S32x96_0_0
abbrev allGateBias : Rect S1x96 := Rect.unit (s := S1x96) ![0, 0] S1x96.size inb_S1x96_S1x96_0_0

/-- What the body's one store leaves in the output window's buffer, from what the eight input buffers read: the
    adjacency slab `a`, the annotations `n`, the hidden-state rows `h`, the bias row `b`, the two gate matrices
    `w` `u` and their bias rows `bw` `bu`. -/
def storedBlock (a : Vec F S1x512x4096 .f32) (n : Vec F S1x4096x32 .f32) (h : Vec F S1x512x32 .f32) (b : Vec F S1x32 .f32)
    (w u : Vec F S32x96 .f32) (bw bu : Vec F S1x96 .f32) : Vec F S1x512x32 .f32 :=
  View.canon [⟨allRows, k0_pay1 (k0_pay2 (View.ld h allRows))
    (k0_pay5 (View.ld a allAdj) (View.ld n allAnn) (View.ld h allRows) (View.ld b allBias) (View.ld w allGate) (View.ld bw allGateBias) (View.ld u allGate) (View.ld bu allGateBias))
    (k0_pay6 (View.ld a allAdj) (View.ld n allAnn) (View.ld h allRows) (View.ld b allBias) (View.ld w allGate) (View.ld bw allGateBias) (View.ld u allGate) (View.ld bu allGateBias))⟩]

/-- The one store is of the whole block. -/
theorem stored_covers (p : Vec F S1x512x32 .f32) (y : S1x512x32.Idx) :
    ∃ pc ∈ ([⟨allRows, p⟩] : List (View.Piece (Elt F) S1x512x32 .f32)), y ∈ pc.1.set :=
  View.cover_of_tiled [⟨allRows, p⟩] S1x512x32.size (by rfl) y

set_option maxHeartbeats 1000000 in
/-- The body, on whole buffers — the eight inputs' at contents that read `a … bu`, the output's at anything — runs to a
    state with the inputs' buffers as they were and the output's at `storedBlock` of what the inputs read. -/
theorem body_runs (c : Dev nD) (E : Set ℕ) (i : grid0.Coords)
    (arg2 : Memref sig .tc .vmem S1x512x4096 .f32) (harg2 : arg2.IsWhole) (arg3 : Memref sig .tc .vmem S1x4096x32 .f32) (harg3 : arg3.IsWhole)
    (arg4 : Memref sig .tc .vmem S1x512x32 .f32) (harg4 : arg4.IsWhole) (arg5 : Memref sig .tc .vmem S1x32 .f32) (harg5 : arg5.IsWhole)
    (arg6 : Memref sig .tc .vmem S32x96 .f32) (harg6 : arg6.IsWhole) (arg7 : Memref sig .tc .vmem S32x96 .f32) (harg7 : arg7.IsWhole)
    (arg8 : Memref sig .tc .vmem S1x96 .f32) (harg8 : arg8.IsWhole) (arg9 : Memref sig .tc .vmem S1x96 .f32) (harg9 : arg9.IsWhole)
    (arg10 : Memref sig .tc .vmem S1x512x32 .f32) (harg10 : arg10.IsWhole)
    (a : Vec F S1x512x4096 .f32) (n : Vec F S1x4096x32 .f32) (h : Vec F S1x512x32 .f32) (b : Vec F S1x32 .f32)
    (w u : Vec F S32x96 .f32) (bw bu : Vec F S1x96 .f32) (K : PUnit → sProp 𝕄) :
    iprop(owns (c : Thread nD τ) arg2 fullShare a ∗ owns (c : Thread nD τ) arg3 fullShare n ∗ owns (c : Thread nD τ) arg4 fullShare h
        ∗ owns (c : Thread nD τ) arg5 fullShare b ∗ owns (c : Thread nD τ) arg6 fullShare w ∗ owns (c : Thread nD τ) arg7 fullShare u
        ∗ owns (c : Thread nD τ) arg8 fullShare bw ∗ owns (c : Thread nD τ) arg9 fullShare bu ∗ (∃ d, owns (c : Thread nD τ) arg10 fullShare d)
        ∗ (iprop(owns (c : Thread nD τ) arg2 fullShare a ∗ owns (c : Thread nD τ) arg3 fullShare n ∗ owns (c : Thread nD τ) arg4 fullShare h
            ∗ owns (c : Thread nD τ) arg5 fullShare b ∗ owns (c : Thread nD τ) arg6 fullShare w ∗ owns (c : Thread nD τ) arg7 fullShare u
            ∗ owns (c : Thread nD τ) arg8 fullShare bw ∗ owns (c : Thread nD τ) arg9 fullShare bu
            ∗ owns (c : Thread nD τ) arg10 fullShare (storedBlock a n h b w u bw bu)) -∗ K ⟨⟩))
      ⊢ wp frame (wpE (defs₀ (F := F)) Variants.none c none) E
          (cc0__ggc_body i arg2 harg2 arg3 harg3 arg4 harg4 arg5 harg5 arg6 harg6 arg7 harg7 arg8 harg8 arg9 harg9 arg10 harg10) K := by
  simp only [cc0__ggc_body_eq_skeleton]; unfold cc0__ggc_body_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf2 hf3 hf4 hf5 hf6 hf7 hf8 hf9
  sl_exec
  sl_step
  iapply Hk
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]; · iexists f8; isplitr; · ipureintro; rfl
                  iexact H8
  isplitl [H9]; · iexists f9; isplitr; · ipureintro; rfl
                  iexact H9
  iexists _; isplitr
  swap; · iexact H10
  ipureintro
  exact View.read_writes_eq_canon _ _ _ (stored_covers _)

/-! ## The proof data -/

/-- The pipeline's proof data on core `c`: the arrays as the region finds them; each input window's buffer left at its
    block and the output window's at `storedBlock` of the eight input blocks; nothing kept between points (the program
    has no scratch buffer); the annotations' array dealt in two halves to its two windows, every other array held whole;
    nothing owed. -/
def dats (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => blockAt m c 7 t
    | ⟨8, _⟩ => storedBlock (blockAt m c 0 t) (blockAt m c 1 t) (blockAt m c 2 t) (blockAt m c 3 t) (blockAt m c 4 t)
        (blockAt m c 5 t) (blockAt m c 6 t) (blockAt m c 7 t)
  Φ _ := Pipeline.scopedRest (Ix := Unit) (Name := ℕ) (U := UR sig nD τ) (Lvl := ℕ) (Val := Elt F) spec0 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
    | ⟨7, _⟩ => fullShare
    | ⟨8, _⟩ => fullShare
  owed _ := 0

theorem dats_A (c : Dev nD) (w : Fin cfg0.W) : (dats m 0 c).A w = atEntry m c (Pipeline.arrRef spec0 w) := by
  dsimp only [dats]

theorem left0 (c : Dev nD) (t : Fin cfg0.N) : (dats m 0 c).after 0 t = blockAt m c 0 t := by dsimp only [dats]
theorem left1 (c : Dev nD) (t : Fin cfg0.N) : (dats m 0 c).after 1 t = blockAt m c 1 t := by dsimp only [dats]
theorem left2 (c : Dev nD) (t : Fin cfg0.N) : (dats m 0 c).after 2 t = blockAt m c 2 t := by dsimp only [dats]
theorem left3 (c : Dev nD) (t : Fin cfg0.N) : (dats m 0 c).after 3 t = blockAt m c 3 t := by dsimp only [dats]
theorem left4 (c : Dev nD) (t : Fin cfg0.N) : (dats m 0 c).after 4 t = blockAt m c 4 t := by dsimp only [dats]
theorem left5 (c : Dev nD) (t : Fin cfg0.N) : (dats m 0 c).after 5 t = blockAt m c 5 t := by dsimp only [dats]
theorem left6 (c : Dev nD) (t : Fin cfg0.N) : (dats m 0 c).after 6 t = blockAt m c 6 t := by dsimp only [dats]
theorem left7 (c : Dev nD) (t : Fin cfg0.N) : (dats m 0 c).after 7 t = blockAt m c 7 t := by dsimp only [dats]
theorem left8 (c : Dev nD) (t : Fin cfg0.N) : (dats m 0 c).after 8 t
    = storedBlock (blockAt m c 0 t) (blockAt m c 1 t) (blockAt m c 2 t) (blockAt m c 3 t) (blockAt m c 4 t)
        (blockAt m c 5 t) (blockAt m c 6 t) (blockAt m c 7 t) := by dsimp only [dats]

/-! ## The body at a grid point -/

/-- At every point the body, called on the windows' current buffers — each input's holding its block —, leaves the
    inputs' buffers as they were and the output's at the stored block; the (empty) invariant and what the core owes
    pass through untouched. -/
theorem point_runs (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare ((dats m 0 c).before 5 t d))
      ∗ (∃ d, owns (c : Thread nD τ) (st0_6 t) fullShare ((dats m 0 c).before 6 t d))
      ∗ (∃ d, owns (c : Thread nD τ) (st0_7 t) fullShare ((dats m 0 c).before 7 t d))
      ∗ (∃ d, owns (c : Thread nD τ) (st0_8 t) fullShare ((dats m 0 c).before 8 t d)))
    ⊢ wp frame (wpE (defs₀ (F := F)) Variants.none c none) Set.univ (bodyAt0 t) (fun _ =>
      iprop((dats m 0 c).Φ t.succ ∗ (dats m 0 c).owesAt () t.succ
        ∗ owns (c : Thread nD τ) (st0_0 t) fullShare ((dats m 0 c).after 0 t)
        ∗ owns (c : Thread nD τ) (st0_1 t) fullShare ((dats m 0 c).after 1 t)
        ∗ owns (c : Thread nD τ) (st0_2 t) fullShare ((dats m 0 c).after 2 t)
        ∗ owns (c : Thread nD τ) (st0_3 t) fullShare ((dats m 0 c).after 3 t)
        ∗ owns (c : Thread nD τ) (st0_4 t) fullShare ((dats m 0 c).after 4 t)
        ∗ owns (c : Thread nD τ) (st0_5 t) fullShare ((dats m 0 c).after 5 t)
        ∗ owns (c : Thread nD τ) (st0_6 t) fullShare ((dats m 0 c).after 6 t)
        ∗ owns (c : Thread nD τ) (st0_7 t) fullShare ((dats m 0 c).after 7 t)
        ∗ owns (c : Thread nD τ) (st0_8 t) fullShare ((dats m 0 c).after 8 t))) := by
  unfold bodyAt0
  simp only [found0 m (dats m 0 c) (dats_A m c) (left0 m c), found1 m (dats m 0 c) (dats_A m c) (left1 m c),
    found2 m (dats m 0 c) (dats_A m c) (left2 m c), found3 m (dats m 0 c) (dats_A m c) (left3 m c),
    found4 m (dats m 0 c) (dats_A m c) (left4 m c), found5 m (dats m 0 c) (dats_A m c) (left5 m c),
    found6 m (dats m 0 c) (dats_A m c) (left6 m c), found7 m (dats m 0 c) (dats_A m c) (left7 m c)]
  rw [show (dats m 0 c).Φ t.succ = (dats m 0 c).Φ t.castSucc from rfl,
    show (dats m 0 c).owesAt () t.succ = (dats m 0 c).owesAt () t.castSucc from rfl,
    left0, left1, left2, left3, left4, left5, left6, left7, left8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_runs c Set.univ (grid0.coords t) _ _ _ _ _ _ _ _ _ _ _ _ _ _ _ _ _ _
    (blockAt m c 0 t) (blockAt m c 1 t) (blockAt m c 2 t) (blockAt m c 3 t) (blockAt m c 4 t) (blockAt m c 5 t)
    (blockAt m c 6 t) (blockAt m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline library's body obligation. -/
theorem obligation (c : Dev nD) : BodyObligation (dats (F := F) m 0 c) (defs₀ (F := F)) Variants.none () Set.univ := fun t => by
  rw [bigSep_W0, bigSep_W0]
  exact point_runs m c t

/-! ## The launch -/

/-- The buffers behind the nine windows' arrays are eight: the annotations' buffer serves two windows. -/
theorem arrayBuffers : Finset.univ.image (Pipeline.arrRef spec0)
    = [main_arg0, main_arg1, main_call0_v0, main_arg3, main_arg4, main_call0_v1, main_call0_v2, main_v0].toFinset := by decide

/-- Those eight buffers, each held whole at its entry contents, one by one. -/
theorem arrBufs_chain (c : Dev nD) :
    (Pipeline.arrBufs (Ix := Unit) (Name := ℕ) (U := UR sig nD τ) (Lvl := ℕ) spec0 c (atEntry m c) : sProp 𝕄)
      = iprop((((c : Thread nD τ).loc main_arg0) ↦{fullShare} atEntry m c main_arg0)
          ∗ (((c : Thread nD τ).loc main_arg1) ↦{fullShare} atEntry m c main_arg1)
          ∗ (((c : Thread nD τ).loc main_call0_v0) ↦{fullShare} atEntry m c main_call0_v0)
          ∗ (((c : Thread nD τ).loc main_arg3) ↦{fullShare} atEntry m c main_arg3)
          ∗ (((c : Thread nD τ).loc main_arg4) ↦{fullShare} atEntry m c main_arg4)
          ∗ (((c : Thread nD τ).loc main_call0_v1) ↦{fullShare} atEntry m c main_call0_v1)
          ∗ (((c : Thread nD τ).loc main_call0_v2) ↦{fullShare} atEntry m c main_call0_v2)
          ∗ (((c : Thread nD τ).loc main_v0) ↦{fullShare} atEntry m c main_v0)) :=
  bigSep_eq_bigSepL_of_eq [main_arg0, main_arg1, main_call0_v0, main_arg3, main_arg4, main_call0_v1, main_call0_v2, main_v0]
    arrayBuffers (by decide) _

/-- How the launch's eight array buffers, each held whole, become the nine windows' arrays: the annotations' buffer is
    split into its two half shares, one for each of its windows; every other buffer goes whole to its one window. -/
theorem deal (c : Dev nD) :
    (Pipeline.arrBufs (Ix := Unit) (Name := ℕ) (U := UR sig nD τ) (Lvl := ℕ) spec0 c (atEntry m c) : sProp 𝕄)
      ⊢ (dats m 0 c).arrays ((dats m 0 c).arrAt · 0) := by
  rw [arrBufs_chain]
  unfold Dat.arrays
  rw [bigSep_W0]
  simp only [(arr_whole0 0).set_eq_univ, (arr_whole0 1).set_eq_univ, (arr_whole0 3).set_eq_univ,
    (arr_whole0 4).set_eq_univ, (arr_whole0 5).set_eq_univ, (arr_whole0 6).set_eq_univ, (arr_whole0 7).set_eq_univ,
    (arr_whole0 8).set_eq_univ]
  rw [show (dats m 0 c).share 0 = fullShare from rfl, show (dats m 0 c).share 1 = fullShare.left from rfl,
    show (dats m 0 c).share 2 = fullShare.right from rfl, show (dats m 0 c).share 3 = fullShare from rfl,
    show (dats m 0 c).share 4 = fullShare from rfl, show (dats m 0 c).share 5 = fullShare from rfl,
    show (dats m 0 c).share 6 = fullShare from rfl, show (dats m 0 c).share 7 = fullShare from rfl,
    show (dats m 0 c).share 8 = fullShare from rfl]
  iintro ⟨Hadj, Hann, Hb, Hw, Hu, Hbw, Hbu, Hout⟩
  ihave Hann2 := (pointsTo_share (PosShare.mem_left_op_right fullShare)).1 $$ Hann
  icases Hann2 with ⟨HannL, HannR⟩
  isplitl [Hadj]; · iexact Hadj
  isplitl [HannL]; · iexact HannL
  isplitl [HannR]; · iexact HannR
  isplitl [Hb]; · iexact Hb
  isplitl [Hw]; · iexact Hw
  isplitl [Hu]; · iexact Hu
  isplitl [Hbw]; · iexact Hbw
  isplitl [Hbu]; · iexact Hbu
  iexact Hout

/-- The core's scoped buffers that are no staging buffer: what the (constant) region invariant holds. -/
abbrev scratch (c : Dev nD) : sProp 𝕄 :=
  Pipeline.scopedRest (Ix := Unit) (Name := ℕ) (U := UR sig nD τ) (Lvl := ℕ) (Val := Elt F) spec0 c

theorem scratch_in (c : Dev nD) : iprop(emp ∗ scratch (F := F) c) ⊢ scratch (F := F) c := by
  iintro ⟨-, H⟩; iexact H

theorem scratch_out (c : Dev nD) : scratch (F := F) c ⊢ iprop(emp ∗ scratch (F := F) c) := by
  iintro H; isplitr
  · iempintro
  · iexact H

set_option backward.isDefEq.respectTransparency.types false in
/-- From any memory with zero counters every weakly fair execution of the program terminates, and at the end each
    window's array holds what the proof data compute — an input its entry contents, the output those overwritten block
    by block by what the body stored — and every buffer no window stages holds what it held at the region's entry. -/
theorem run_region : θ_run defs (onTc (τ := τ) (main (F := F))) (s₀ m ρ) (Pipeline.FramePost cfgs (dats m) 0 (atEntry m)) :=
  Pipeline.θ_run_region_noSem_shared cfgs (dats m) () cellOf_inj (0 : Fin 1) winFacts₀0 emb₁ defs₀ Variants.none m ρ main
    (hbody := fun c => (obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := atEntry m) (hmain := upToRegion m Variants.none) (hsplit := deal m)
    (X := fun _ => iprop(emp)) (Y := fun _ => iprop(emp))
    (Z := fun c => Pipeline.unscopedRest (Ix := Unit) (Name := ℕ) (U := UR sig nD τ) (Lvl := ℕ) spec0 c (atEntry m c))
    (hX := fun c => by
      iintro H; isplitr
      · iempintro
      · iexact H)
    (hin := fun c => scratch_in c)
    (hout := fun c => scratch_out c)
    (QY := fun c s => ∀ b ∈ Pipeline.restRefs sig spec0, s.mem ((c.tc : Thread nD τ).loc b) = atEntry m c b)
    (hY := fun c s' => by
      iintro ⟨-, HU, HSI⟩
      unfold Pipeline.unscopedRest
      imodintro
      iapply (pointsTo_read_all (Pipeline.restRefs sig spec0) (fun b => (c.tc : Thread nD τ).loc b) (atEntry m c) s')
      isplitl [HU] <;> iassumption)
    (hQ := fun s h => h)

/-! ## What the region finds in the arrays, and the frame -/

/-- No reshape writes an argument: the region finds the seven arguments as launched. -/
theorem entry_arg0 (c : Dev nD) : atEntry m c main_arg0 = m ((c : Thread nD τ).loc main_arg0) := by
  show StableHlo.after hostOps0 (fun b => m (c, b)) (Proc.devRef .tc main_arg0) = _
  after_results
theorem entry_arg1 (c : Dev nD) : atEntry m c main_arg1 = m ((c : Thread nD τ).loc main_arg1) := by
  show StableHlo.after hostOps0 (fun b => m (c, b)) (Proc.devRef .tc main_arg1) = _
  after_results
theorem entry_arg2 (c : Dev nD) : atEntry m c main_arg2 = m ((c : Thread nD τ).loc main_arg2) := by
  show StableHlo.after hostOps0 (fun b => m (c, b)) (Proc.devRef .tc main_arg2) = _
  after_results
theorem entry_arg3 (c : Dev nD) : atEntry m c main_arg3 = m ((c : Thread nD τ).loc main_arg3) := by
  show StableHlo.after hostOps0 (fun b => m (c, b)) (Proc.devRef .tc main_arg3) = _
  after_results
theorem entry_arg4 (c : Dev nD) : atEntry m c main_arg4 = m ((c : Thread nD τ).loc main_arg4) := by
  show StableHlo.after hostOps0 (fun b => m (c, b)) (Proc.devRef .tc main_arg4) = _
  after_results
theorem entry_arg5 (c : Dev nD) : atEntry m c main_arg5 = m ((c : Thread nD τ).loc main_arg5) := by
  show StableHlo.after hostOps0 (fun b => m (c, b)) (Proc.devRef .tc main_arg5) = _
  after_results
theorem entry_arg6 (c : Dev nD) : atEntry m c main_arg6 = m ((c : Thread nD τ).loc main_arg6) := by
  show StableHlo.after hostOps0 (fun b => m (c, b)) (Proc.devRef .tc main_arg6) = _
  after_results

/-- The three rows the reshapes make: the bias and the two gate biases, each the argument with a unit axis in front. -/
theorem entry_biasRow (c : Dev nD) :
    (atEntry m c main_call0_v0 : S1x32.Idx → Elt F .f32)
      = shapeCast S1x32 (m ((c : Thread nD τ).loc main_arg2) : S1x1x32.Idx → Elt F .f32) shapeCasts_S1x1x32_S1x32 := by
  show StableHlo.after hostOps0 (fun b => m (c, b)) (Proc.devRef .tc main_call0_v0) = _
  after_results; rfl
theorem entry_inBiasRow (c : Dev nD) :
    (atEntry m c main_call0_v1 : S1x96.Idx → Elt F .f32)
      = shapeCast S1x96 (m ((c : Thread nD τ).loc main_arg5) : S96.Idx → Elt F .f32) shapeCasts_S96_S1x96 := by
  show StableHlo.after hostOps0 (fun b => m (c, b)) (Proc.devRef .tc main_call0_v1) = _
  after_results; rfl
theorem entry_recBiasRow (c : Dev nD) :
    (atEntry m c main_call0_v2 : S1x96.Idx → Elt F .f32)
      = shapeCast S1x96 (m ((c : Thread nD τ).loc main_arg6) : S96.Idx → Elt F .f32) shapeCasts_S96_S1x96 := by
  show StableHlo.after hostOps0 (fun b => m (c, b)) (Proc.devRef .tc main_call0_v2) = _
  after_results; rfl

/-- At the end of the run the seven arguments hold what they held at launch: four are input windows' arrays, never
    written; three are staged by no window and pass the region by. -/
theorem args_kept (r : PUnit × MemSt nD τ sig (Elt F)) (h : Pipeline.FramePost cfgs (dats m) 0 (atEntry m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) :=
  ⟨((h c).1 0).trans (((dats m 0 c).arrAt_in 0 rfl _).trans ((dats_A m c 0).trans (entry_arg0 m c))),
   ((h c).1 1).trans (((dats m 0 c).arrAt_in 1 rfl _).trans ((dats_A m c 1).trans (entry_arg1 m c))),
   ((h c).2 main_arg2 (Pipeline.mem_restRefs_of main_arg2 rfl (by decide))).trans (entry_arg2 m c),
   ((h c).1 4).trans (((dats m 0 c).arrAt_in 4 rfl _).trans ((dats_A m c 4).trans (entry_arg3 m c))),
   ((h c).1 5).trans (((dats m 0 c).arrAt_in 5 rfl _).trans ((dats_A m c 5).trans (entry_arg4 m c))),
   ((h c).2 main_arg5 (Pipeline.mem_restRefs_of main_arg5 rfl (by decide))).trans (entry_arg5 m c),
   ((h c).2 main_arg6 (Pipeline.mem_restRefs_of main_arg6 rfl (by decide))).trans (entry_arg6 m c)⟩

/-- The frame: the program runs to the end, nothing faults, and the arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => args_kept m r h c) (run_region m ρ)

end Cert.KernelIdeal.Region

end
-- ==== Proof.Spec.lean ====
/-
  The gated graph convolution, one output entry at a time, over the extended reals.

  For a graph `b`, a node `r` and a channel `c` the result is a single step of a gated recurrent unit whose
  input is the graph convolution of the node and whose hidden state is the node's own annotation:

      x j   = (∑ k, adj[r, k] · ann[k, j]) + bias j            (aggregation over the 4096 nodes)
      xw n  = (∑ j, x j · W[j, n]) + b_in n                    (input projection, 96 gate columns)
      hu n  = (∑ j, h j · U[j, n]) + b_rec n                   (recurrent projection)
      z     = σ (xw c + hu c)                                  (update gate: columns 0‥31)
      ρ     = σ (xw (32 + c) + hu (32 + c))                    (reset gate: columns 32‥63)
      ĥ     = tanh (xw (64 + c) + ρ · hu (64 + c))             (candidate: columns 64‥95)
      out   = z · h c + (1 − z) · ĥ

  with σ the logistic function `1 / (1 + e⁻ˣ)` read on the extended reals. The subtraction's `1` is kept as the
  single-precision pattern both programs spell it with.
-/
import Idealize.ShloMosaic.PureOps.Ideal
import Idealize.ShloMosaic.Lib.ValueIdx

noncomputable section

namespace Cert.Gru

open Idealize.ShloMosaic

/-- Column `c` of gate `g` (update, reset, candidate) among the 96 gate columns. -/
def gcol (g : Fin 3) (c : Fin 32) : Fin 96 := ⟨g.val * 32 + c.val, by have := g.isLt; have := c.isLt; omega⟩

/-- One entry of the gated update, from the node's adjacency row `a`, the graph's annotations `ann`, the node's own
    annotation `h`, and the parameters. -/
def cell (a : Fin 4096 → EReal) (ann : Fin 4096 → Fin 32 → EReal) (h bias : Fin 32 → EReal)
    (W U : Fin 32 → Fin 96 → EReal) (bi br : Fin 96 → EReal) (c : Fin 32) : EReal :=
  let x : Fin 32 → EReal := fun j => (∑ k : Fin 4096, a k * ann k j) + bias j
  let xw : Fin 96 → EReal := fun n => (∑ j : Fin 32, x j * W j n) + bi n
  let hu : Fin 96 → EReal := fun n => (∑ j : Fin 32, h j * U j n) + br n
  let z : EReal := Ideal.logistic (xw (gcol 0 c) + hu (gcol 0 c))
  let ρ : EReal := Ideal.logistic (xw (gcol 1 c) + hu (gcol 1 c))
  let hh : EReal := Ideal.tanh (xw (gcol 2 c) + ρ * hu (gcol 2 c))
  z * h c + (Ideal.ofBits .f32 0x3F800000#32 - z) * hh

/-- The whole result array as a function of the seven argument arrays: entry `(b, r, c)` is `cell` of row `r` of graph
    `b`'s adjacency, graph `b`'s annotations, and node `(b, r)`'s annotation. -/
def gru (adj : (⟨3, ![2, 4096, 4096]⟩ : Shape).Idx → EReal) (ann : (⟨3, ![2, 4096, 32]⟩ : Shape).Idx → EReal)
    (bias : (⟨3, ![1, 1, 32]⟩ : Shape).Idx → EReal) (W U : (⟨2, ![32, 96]⟩ : Shape).Idx → EReal)
    (bi br : (⟨1, ![96]⟩ : Shape).Idx → EReal) (b : Fin 2) (r : Fin 4096) (c : Fin 32) : EReal :=
  cell (fun k => adj (ValueIdx.ix3 b r k)) (fun k j => ann (ValueIdx.ix3 b k j)) (fun j => ann (ValueIdx.ix3 b r j))
    (fun j => bias (ValueIdx.ix3 (0 : Fin 1) (0 : Fin 1) j)) (fun j n => W (ValueIdx.ix2 j n)) (fun j n => U (ValueIdx.ix2 j n))
    (fun n => bi (ValueIdx.ix1 n)) (fun n => br (ValueIdx.ix1 n)) c

end Cert.Gru

end
-- ==== Proof.KernelValue.lean ====
/-
  The kernel body's stored value, read at one entry of the output block: it is the gated update `Cert.Gru.cell` of the
  loaded blocks' rows.
-/
import proofs.«103752_g76081050681489_cont_9to1_m_207_5_alg».proof.Proof.Gen.KernelIdeal.Skeleton
import proofs.«103752_g76081050681489_cont_9to1_m_207_5_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BodyValue

open Idealize.ShloMosaic Cert.KernelIdeal Cert.KernelIdeal.Gen
open Idealize.ShloMosaic.ValueIdx (ix1 ix2 ix3)

/-- What the body stores into the output block, from the eight loaded blocks. -/
def stored {F : FTy → Type} [FloatOps F] (v0 : Vec F S1x512x4096 .f32) (v2 : Vec F S1x4096x32 .f32) (v4 : Vec F S1x512x32 .f32)
    (v7 : Vec F S1x32 .f32) (v12 : Vec F S32x96 .f32) (v14 : Vec F S1x96 .f32) (v18 : Vec F S32x96 .f32) (v20 : Vec F S1x96 .f32) :
    Vec F S1x512x32 .f32 :=
  k0_pay1 (k0_pay2 v4) (k0_pay5 v0 v2 v4 v7 v12 v14 v18 v20) (k0_pay6 v0 v2 v4 v7 v12 v14 v18 v20)

/-! ## The two contractions' operand indices, axis by axis -/

theorem lhs_agg_0 (i : S512x32.Idx) (q : dot_S512x4096_S4096x32_S512x32_1_0_0_1_n_n.contr.Idx) :
    (dot_S512x4096_S4096x32_S512x32_1_0_0_1_n_n.lhsIdx i q 0).val = (i 0).val := by
  unfold DotDims.lhsIdx
  rw [dif_neg (show ¬(0 : Fin S512x4096.rank) ∈ dot_S512x4096_S4096x32_S512x32_1_0_0_1_n_n.lhsBatch by decide), dif_pos (show (0 : Fin S512x4096.rank) ∈ dot_S512x4096_S4096x32_S512x32_1_0_0_1_n_n.lhsNonContracting by decide)]
  rfl
theorem lhs_agg_1 (i : S512x32.Idx) (q : dot_S512x4096_S4096x32_S512x32_1_0_0_1_n_n.contr.Idx) :
    (dot_S512x4096_S4096x32_S512x32_1_0_0_1_n_n.lhsIdx i q 1).val = (q ⟨0, by decide⟩).val :=
  dot_S512x4096_S4096x32_S512x32_1_0_0_1_n_n.lhsIdx_val_of_single rfl i q
theorem rhs_agg_0 (i : S512x32.Idx) (q : dot_S512x4096_S4096x32_S512x32_1_0_0_1_n_n.contr.Idx) :
    (dot_S512x4096_S4096x32_S512x32_1_0_0_1_n_n.rhsIdx i q 0).val = (q ⟨0, by decide⟩).val :=
  dot_S512x4096_S4096x32_S512x32_1_0_0_1_n_n.rhsIdx_val_of_single rfl i q
theorem rhs_agg_1 (i : S512x32.Idx) (q : dot_S512x4096_S4096x32_S512x32_1_0_0_1_n_n.contr.Idx) :
    (dot_S512x4096_S4096x32_S512x32_1_0_0_1_n_n.rhsIdx i q 1).val = (i 1).val := by
  unfold DotDims.rhsIdx
  rw [dif_neg (show ¬(1 : Fin S4096x32.rank) ∈ dot_S512x4096_S4096x32_S512x32_1_0_0_1_n_n.rhsBatch by decide), dif_pos (show (1 : Fin S4096x32.rank) ∈ dot_S512x4096_S4096x32_S512x32_1_0_0_1_n_n.rhsNonContracting by decide)]
  rfl

theorem lhs_proj_0 (i : S512x96.Idx) (q : dot_S512x32_S32x96_S512x96_1_0_0_1_n_n.contr.Idx) :
    (dot_S512x32_S32x96_S512x96_1_0_0_1_n_n.lhsIdx i q 0).val = (i 0).val := by
  unfold DotDims.lhsIdx
  rw [dif_neg (show ¬(0 : Fin S512x32.rank) ∈ dot_S512x32_S32x96_S512x96_1_0_0_1_n_n.lhsBatch by decide), dif_pos (show (0 : Fin S512x32.rank) ∈ dot_S512x32_S32x96_S512x96_1_0_0_1_n_n.lhsNonContracting by decide)]
  rfl
theorem lhs_proj_1 (i : S512x96.Idx) (q : dot_S512x32_S32x96_S512x96_1_0_0_1_n_n.contr.Idx) :
    (dot_S512x32_S32x96_S512x96_1_0_0_1_n_n.lhsIdx i q 1).val = (q ⟨0, by decide⟩).val :=
  dot_S512x32_S32x96_S512x96_1_0_0_1_n_n.lhsIdx_val_of_single rfl i q
theorem rhs_proj_0 (i : S512x96.Idx) (q : dot_S512x32_S32x96_S512x96_1_0_0_1_n_n.contr.Idx) :
    (dot_S512x32_S32x96_S512x96_1_0_0_1_n_n.rhsIdx i q 0).val = (q ⟨0, by decide⟩).val :=
  dot_S512x32_S32x96_S512x96_1_0_0_1_n_n.rhsIdx_val_of_single rfl i q
theorem rhs_proj_1 (i : S512x96.Idx) (q : dot_S512x32_S32x96_S512x96_1_0_0_1_n_n.contr.Idx) :
    (dot_S512x32_S32x96_S512x96_1_0_0_1_n_n.rhsIdx i q 1).val = (i 1).val := by
  unfold DotDims.rhsIdx
  rw [dif_neg (show ¬(1 : Fin S32x96.rank) ∈ dot_S512x32_S32x96_S512x96_1_0_0_1_n_n.rhsBatch by decide), dif_pos (show (1 : Fin S32x96.rank) ∈ dot_S512x32_S32x96_S512x96_1_0_0_1_n_n.rhsNonContracting by decide)]
  rfl

/-! ## The two contractions into the zero accumulator, read at an entry -/

/-- The aggregation: entry `(p, j)` of `a · b` is the sum over the 4096 nodes. -/
theorem agg_apply (a : FVec Ideal S512x4096 .f32) (b : FVec Ideal S4096x32 .f32) (p : Fin 512) (j : Fin 32) :
    matmul dot_S512x4096_S4096x32_S512x32_1_0_0_1_n_n none a b (constant (F := Ideal) S512x32 .f32 0x00000000#32) (ix2 p j)
      = ∑ k : Fin 4096, a (ix2 p k) * b (ix2 k j) := by
  refine (Ideal.matmul_constant_zero_apply dot_S512x4096_S4096x32_S512x32_1_0_0_1_n_n none a b (ix2 p j)).trans ?_
  rw [← Equiv.sum_comp (ValueIdx.contrEquiv1 dot_S512x4096_S4096x32_S512x32_1_0_0_1_n_n 4096 rfl rfl).symm]
  refine Finset.sum_congr rfl fun k _ => ?_
  have hk := ValueIdx.contrEquiv1_symm_val dot_S512x4096_S4096x32_S512x32_1_0_0_1_n_n 4096 rfl rfl k
  have el : dot_S512x4096_S4096x32_S512x32_1_0_0_1_n_n.lhsIdx (ix2 p j) ((ValueIdx.contrEquiv1 dot_S512x4096_S4096x32_S512x32_1_0_0_1_n_n 4096 rfl rfl).symm k) = ix2 p k := funext fun a => Fin.ext (by
    match a with
    | ⟨0, _⟩ => exact lhs_agg_0 _ _
    | ⟨1, _⟩ => exact (lhs_agg_1 _ _).trans hk)
  have er : dot_S512x4096_S4096x32_S512x32_1_0_0_1_n_n.rhsIdx (ix2 p j) ((ValueIdx.contrEquiv1 dot_S512x4096_S4096x32_S512x32_1_0_0_1_n_n 4096 rfl rfl).symm k) = ix2 k j := funext fun a => Fin.ext (by
    match a with
    | ⟨0, _⟩ => exact (rhs_agg_0 _ _).trans hk
    | ⟨1, _⟩ => exact rhs_agg_1 _ _)
  rw [el, er]

/-- A projection onto the 96 gate columns: entry `(p, n)` of `a · b` is the sum over the 32 channels. -/
theorem proj_apply (a : FVec Ideal S512x32 .f32) (b : FVec Ideal S32x96 .f32) (p : Fin 512) (n : Fin 96) :
    matmul dot_S512x32_S32x96_S512x96_1_0_0_1_n_n none a b (constant (F := Ideal) S512x96 .f32 0x00000000#32) (ix2 p n)
      = ∑ j : Fin 32, a (ix2 p j) * b (ix2 j n) := by
  refine (Ideal.matmul_constant_zero_apply dot_S512x32_S32x96_S512x96_1_0_0_1_n_n none a b (ix2 p n)).trans ?_
  rw [← Equiv.sum_comp (ValueIdx.contrEquiv1 dot_S512x32_S32x96_S512x96_1_0_0_1_n_n 32 rfl rfl).symm]
  refine Finset.sum_congr rfl fun k _ => ?_
  have hk := ValueIdx.contrEquiv1_symm_val dot_S512x32_S32x96_S512x96_1_0_0_1_n_n 32 rfl rfl k
  have el : dot_S512x32_S32x96_S512x96_1_0_0_1_n_n.lhsIdx (ix2 p n) ((ValueIdx.contrEquiv1 dot_S512x32_S32x96_S512x96_1_0_0_1_n_n 32 rfl rfl).symm k) = ix2 p k := funext fun a => Fin.ext (by
    match a with
    | ⟨0, _⟩ => exact lhs_proj_0 _ _
    | ⟨1, _⟩ => exact (lhs_proj_1 _ _).trans hk)
  have er : dot_S512x32_S32x96_S512x96_1_0_0_1_n_n.rhsIdx (ix2 p n) ((ValueIdx.contrEquiv1 dot_S512x32_S32x96_S512x96_1_0_0_1_n_n 32 rfl rfl).symm k) = ix2 k n := funext fun a => Fin.ext (by
    match a with
    | ⟨0, _⟩ => exact (rhs_proj_0 _ _).trans hk
    | ⟨1, _⟩ => exact rhs_proj_1 _ _)
  rw [el, er]

/-! ## The layout operations, read at an entry -/

/-- The bias row `[1, 32]`, flattened, restored and repeated over the 512 rows, reads the row at the column. -/
theorem biasRow_apply {α : Type} (v : S1x32.Idx → α) (h1 : S1x32.ShapeCasts S32) (h2 : S32.ShapeCasts S1x32)
    (h3 : S1x32.Broadcasts S512x32) (p : Fin 512) (j : Fin 32) :
    broadcastTo S512x32 (shapeCast S1x32 (shapeCast S32 v h1) h2) h3 (ix2 p j) = v (ix2 (0 : Fin 1) j) :=
  (ValueIdx.broadcastTo_1b_ab_apply _ h3 p j).trans
    ((ValueIdx.shapeCast_a_1a_apply _ h2 (0 : Fin 1) j).trans (ValueIdx.shapeCast_1a_a_apply v h1 j))

/-- A gate bias row `[1, 96]` repeated over the 512 rows reads the row at the column. -/
theorem gateRow_apply {α : Type} (v : S1x96.Idx → α) (h1 : S1x96.ShapeCasts S1x96) (h2 : S1x96.Broadcasts S512x96)
    (p : Fin 512) (n : Fin 96) :
    broadcastTo S512x96 (shapeCast S1x96 v h1) h2 (ix2 p n) = v (ix2 (0 : Fin 1) n) :=
  (ValueIdx.broadcastTo_1b_ab_apply _ h2 p n).trans (congrFun (shapeCast_self v h1) _)

/-- The update gate's 32 columns of the 96: column `c` of the slice is gate column `gcol 0 c`. -/
theorem slice_update {α : Type} (X : S512x96.Idx → α) (h : S512x96.Slices ![0, 0] S512x32) (p : Fin 512) (c : Fin 32) :
    extractStridedSlice S512x32 ![0, 0] X h (ix2 p c) = X (ix2 p (Cert.Gru.gcol 0 c)) :=
  ValueIdx.slice2_axis1_apply 0 X h p c (Cert.Gru.gcol 0 c) (by
    unfold Cert.Gru.gcol; show 0 * 32 + c.val = 0 + c.val; omega)

/-- The reset gate's columns: column `c` of the slice is gate column `gcol 1 c`. -/
theorem slice_reset {α : Type} (X : S512x96.Idx → α) (h : S512x96.Slices ![0, 32] S512x32) (p : Fin 512) (c : Fin 32) :
    extractStridedSlice S512x32 ![0, 32] X h (ix2 p c) = X (ix2 p (Cert.Gru.gcol 1 c)) :=
  ValueIdx.slice2_axis1_apply 32 X h p c (Cert.Gru.gcol 1 c) (by
    unfold Cert.Gru.gcol; show 1 * 32 + c.val = 32 + c.val; omega)

/-- The candidate's columns: column `c` of the slice is gate column `gcol 2 c`. -/
theorem slice_cand {α : Type} (X : S512x96.Idx → α) (h : S512x96.Slices ![0, 64] S512x32) (p : Fin 512) (c : Fin 32) :
    extractStridedSlice S512x32 ![0, 64] X h (ix2 p c) = X (ix2 p (Cert.Gru.gcol 2 c)) :=
  ValueIdx.slice2_axis1_apply 64 X h p c (Cert.Gru.gcol 2 c) (by
    unfold Cert.Gru.gcol; show 2 * 32 + c.val = 64 + c.val; omega)

/-! ## The payloads, read at an entry -/

/-- The hidden state without its unit axis. -/
theorem pay2_apply (v4 : Vec Ideal S1x512x32 .f32) (p : Fin 512) (j : Fin 32) :
    k0_pay2 v4 (ix2 p j) = v4 (ix3 (0 : Fin 1) p j) := by
  unfold k0_pay2
  exact ValueIdx.shapeCast_1ab_ab_apply v4 _ p j

/-- The aggregated input `x`: the adjacency row against the annotations, plus the bias. -/
theorem x_apply (v0 : FVec Ideal S1x512x4096 .f32) (v2 : FVec Ideal S1x4096x32 .f32) (v7 : FVec Ideal S1x32 .f32)
    (h1 : S1x512x4096.ShapeCasts S512x4096) (h2 : S1x4096x32.ShapeCasts S4096x32) (h3 : S1x32.ShapeCasts S32)
    (h4 : S32.ShapeCasts S1x32) (h5 : S1x32.Broadcasts S512x32) (p : Fin 512) (j : Fin 32) :
    addf (matmul dot_S512x4096_S4096x32_S512x32_1_0_0_1_n_n none (shapeCast S512x4096 v0 h1) (shapeCast S4096x32 v2 h2) (constant (F := Ideal) S512x32 .f32 0x00000000#32))
        (broadcastTo S512x32 (shapeCast S1x32 (shapeCast S32 v7 h3) h4) h5) (ix2 p j)
      = (∑ k : Fin 4096, v0 (ix3 (0 : Fin 1) p k) * v2 (ix3 (0 : Fin 1) k j)) + v7 (ix2 (0 : Fin 1) j) := by
  refine (ValueIdx.addf_apply _ _ _).trans ?_
  refine congrArg₂ (· + ·) ?_ (biasRow_apply v7 h3 h4 h5 p j)
  refine (agg_apply _ _ p j).trans ?_
  refine Finset.sum_congr rfl fun k _ => ?_
  rw [ValueIdx.shapeCast_1ab_ab_apply, ValueIdx.shapeCast_1ab_ab_apply]

/-- The input projection `xw`. -/
theorem pay3_apply (v0 : Vec Ideal S1x512x4096 .f32) (v2 : Vec Ideal S1x4096x32 .f32) (v7 : Vec Ideal S1x32 .f32)
    (v12 : Vec Ideal S32x96 .f32) (v14 : Vec Ideal S1x96 .f32) (p : Fin 512) (n : Fin 96) :
    k0_pay3 v0 v2 v7 v12 v14 (ix2 p n)
      = (∑ j : Fin 32, ((∑ k : Fin 4096, v0 (ix3 (0 : Fin 1) p k) * v2 (ix3 (0 : Fin 1) k j)) + v7 (ix2 (0 : Fin 1) j)) * v12 (ix2 j n))
          + v14 (ix2 (0 : Fin 1) n) := by
  unfold k0_pay3
  refine (ValueIdx.addf_apply _ _ _).trans ?_
  refine congrArg₂ (· + ·) ?_ (gateRow_apply v14 _ _ p n)
  refine (proj_apply _ _ p n).trans ?_
  refine Finset.sum_congr rfl fun j _ => ?_
  exact congrArg (· * v12 (ix2 j n)) (x_apply v0 v2 v7 _ _ _ _ _ p j)

/-- The recurrent projection `hu`. -/
theorem pay4_apply (v4 : Vec Ideal S1x512x32 .f32) (v18 : Vec Ideal S32x96 .f32) (v20 : Vec Ideal S1x96 .f32)
    (p : Fin 512) (n : Fin 96) :
    k0_pay4 v4 v18 v20 (ix2 p n)
      = (∑ j : Fin 32, v4 (ix3 (0 : Fin 1) p j) * v18 (ix2 j n)) + v20 (ix2 (0 : Fin 1) n) := by
  unfold k0_pay4
  refine (ValueIdx.addf_apply _ _ _).trans ?_
  refine congrArg₂ (· + ·) ?_ (gateRow_apply v20 _ _ p n)
  refine (proj_apply _ _ p n).trans ?_
  refine Finset.sum_congr rfl fun j _ => ?_
  exact congrArg (· * v18 (ix2 j n)) (pay2_apply v4 p j)

/-- The update gate `z`. -/
theorem pay5_apply (v0 : Vec Ideal S1x512x4096 .f32) (v2 : Vec Ideal S1x4096x32 .f32) (v4 : Vec Ideal S1x512x32 .f32)
    (v7 : Vec Ideal S1x32 .f32) (v12 : Vec Ideal S32x96 .f32) (v14 : Vec Ideal S1x96 .f32) (v18 : Vec Ideal S32x96 .f32)
    (v20 : Vec Ideal S1x96 .f32) (p : Fin 512) (c : Fin 32) :
    k0_pay5 v0 v2 v4 v7 v12 v14 v18 v20 (ix2 p c)
      = Ideal.logistic (k0_pay3 v0 v2 v7 v12 v14 (ix2 p (Cert.Gru.gcol 0 c)) + k0_pay4 v4 v18 v20 (ix2 p (Cert.Gru.gcol 0 c))) := by
  unfold k0_pay5
  exact congrArg Ideal.logistic (congrArg₂ (· + ·) (slice_update _ _ p c) (slice_update _ _ p c))

/-- The candidate's argument: its input column plus the reset gate times its recurrent column. -/
theorem pay6_apply (v0 : Vec Ideal S1x512x4096 .f32) (v2 : Vec Ideal S1x4096x32 .f32) (v4 : Vec Ideal S1x512x32 .f32)
    (v7 : Vec Ideal S1x32 .f32) (v12 : Vec Ideal S32x96 .f32) (v14 : Vec Ideal S1x96 .f32) (v18 : Vec Ideal S32x96 .f32)
    (v20 : Vec Ideal S1x96 .f32) (p : Fin 512) (c : Fin 32) :
    k0_pay6 v0 v2 v4 v7 v12 v14 v18 v20 (ix2 p c)
      = k0_pay3 v0 v2 v7 v12 v14 (ix2 p (Cert.Gru.gcol 2 c))
          + Ideal.logistic (k0_pay3 v0 v2 v7 v12 v14 (ix2 p (Cert.Gru.gcol 1 c)) + k0_pay4 v4 v18 v20 (ix2 p (Cert.Gru.gcol 1 c)))
            * k0_pay4 v4 v18 v20 (ix2 p (Cert.Gru.gcol 2 c)) := by
  unfold k0_pay6
  exact congrArg₂ (· + ·) (slice_cand _ _ p c)
    (congrArg₂ (· * ·) (congrArg Ideal.logistic (congrArg₂ (· + ·) (slice_reset _ _ p c) (slice_reset _ _ p c)))
      (slice_cand _ _ p c))

/-- The gated blend, with its unit axis restored. -/
theorem pay1_apply (v5 v27 v35 : FVec Ideal S512x32 .f32) (r : Fin 512) (c : Fin 32) :
    k0_pay1 v5 v27 v35 (ix3 (0 : Fin 1) r c)
      = v27 (ix2 r c) * v5 (ix2 r c) + (Ideal.ofBits .f32 0x3F800000#32 - v27 (ix2 r c)) * Ideal.tanh (v35 (ix2 r c)) := by
  unfold k0_pay1
  exact ValueIdx.shapeCast_ab_1ab_apply _ _ (0 : Fin 1) r c

/-- Entry `(0, r, c)` of the stored block is the gated update of row `r` of the adjacency block against the annotation
    block, with row `r` of the hidden-state block. -/
theorem stored_apply (v0 : Vec Ideal S1x512x4096 .f32) (v2 : Vec Ideal S1x4096x32 .f32) (v4 : Vec Ideal S1x512x32 .f32)
    (v7 : Vec Ideal S1x32 .f32) (v12 : Vec Ideal S32x96 .f32) (v14 : Vec Ideal S1x96 .f32) (v18 : Vec Ideal S32x96 .f32)
    (v20 : Vec Ideal S1x96 .f32) (r : Fin 512) (c : Fin 32) :
    stored v0 v2 v4 v7 v12 v14 v18 v20 (ix3 (0 : Fin 1) r c)
      = Cert.Gru.cell (fun k => v0 (ix3 (0 : Fin 1) r k)) (fun k j => v2 (ix3 (0 : Fin 1) k j)) (fun j => v4 (ix3 (0 : Fin 1) r j))
          (fun j => v7 (ix2 (0 : Fin 1) j)) (fun j n => v12 (ix2 j n)) (fun j n => v18 (ix2 j n))
          (fun n => v14 (ix2 (0 : Fin 1) n)) (fun n => v20 (ix2 (0 : Fin 1) n)) c := by
  unfold stored
  rw [pay1_apply, pay5_apply, pay6_apply, pay2_apply]
  simp only [pay3_apply, pay4_apply]
  rfl

end Cert.KernelIdeal.BodyValue

end
-- ==== Proof.KernelIdealResult.lean ====
/-
  The idealized kernel's result array, as one function of the argument arrays.

  Grid point `t` = (graph `g`, row block `k`) stores into rows `512·k … 512·k + 511` of graph `g` of the result the
  gated update of those rows: the adjacency window's block there is those rows of graph `g`'s adjacency, the first
  annotation window's block is all of graph `g`'s annotations, the second one's is those rows of them, and the five
  parameter windows' blocks are the whole parameter arrays (the bias and the two gate biases through their reshapes to a
  row). So every stored block is the restriction to its rows of ONE whole-array function, `Cert.Gru.gru` of the
  arguments; the sixteen blocks tile the result, hence the result array IS that function.
-/
import proofs.«103752_g76081050681489_cont_9to1_m_207_5_alg».proof.Proof.KernelIdealRegion
import proofs.«103752_g76081050681489_cont_9to1_m_207_5_alg».proof.Proof.KernelValue
import proofs.«103752_g76081050681489_cont_9to1_m_207_5_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Result

open Cert.KernelIdeal Cert.KernelIdeal.Gen Cert.KernelIdeal.Region
open Idealize.ShloMosaic Idealize.ShloMosaic.TcCoe Idealize.SL.Sem
open Idealize.ShloMosaic.Pipeline (Dat Cfg Window)
open Idealize.ShloMosaic.ValueIdx (ix1 ix2 ix3 eq_ix3)

variable (m : (ℓ : Loc nD τ sig) → Buf (Elt Ideal) ℓ) (ρ : Dev nD → PrngReg)

/-- The whole result on core `c`: entry `(g, r, q)` is the gated update of the launch arguments there. -/
def whole (c : Dev nD) : S2x4096x32.Idx → EReal := fun i =>
  Cert.Gru.gru (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) ⟨(i 0).val, (i 0).isLt⟩ ⟨(i 1).val, (i 1).isLt⟩ ⟨(i 2).val, (i 2).isLt⟩

/-! ## The offsets are zero -/

theorem zero3 : (![0, 0, 0] : Fin 3 → Nat) = fun _ => 0 := funext fun a => by fin_cases a <;> rfl
theorem zero2 : (![0, 0] : Fin 2 → Nat) = fun _ => 0 := funext fun a => by fin_cases a <;> rfl

/-! ## The windows' blocks, at their literal types -/

abbrev adjBlk (c : Dev nD) (t : Fin cfg0.N) : Vec Ideal S1x512x4096 .f32 := blockAt m c 0 t
abbrev annBlk (c : Dev nD) (t : Fin cfg0.N) : Vec Ideal S1x4096x32 .f32 := blockAt m c 1 t
abbrev hidBlk (c : Dev nD) (t : Fin cfg0.N) : Vec Ideal S1x512x32 .f32 := blockAt m c 2 t
abbrev biasBlk (c : Dev nD) (t : Fin cfg0.N) : Vec Ideal S1x32 .f32 := blockAt m c 3 t
abbrev inBlk (c : Dev nD) (t : Fin cfg0.N) : Vec Ideal S32x96 .f32 := blockAt m c 4 t
abbrev recBlk (c : Dev nD) (t : Fin cfg0.N) : Vec Ideal S32x96 .f32 := blockAt m c 5 t
abbrev inBiasBlk (c : Dev nD) (t : Fin cfg0.N) : Vec Ideal S1x96 .f32 := blockAt m c 6 t
abbrev recBiasBlk (c : Dev nD) (t : Fin cfg0.N) : Vec Ideal S1x96 .f32 := blockAt m c 7 t

/-! ## Where the blocks lie -/

/-- The printed index maps, decided over the sixteen grid points: the adjacency and hidden-state windows move with the
    output window, the annotation window follows its graph only, the parameter windows stay put, and the output's block
    indices range over 2 graphs × 8 row blocks. -/
theorem where_blocks : ∀ t : Fin cfg0.N,
    win0_0.index t (0 : Fin 3) = win0_8.index t (0 : Fin 3) ∧ win0_0.index t (1 : Fin 3) = win0_8.index t (1 : Fin 3)
    ∧ win0_0.index t (2 : Fin 3) = 0
    ∧ win0_1.index t (0 : Fin 3) = win0_8.index t (0 : Fin 3) ∧ win0_1.index t (1 : Fin 3) = 0 ∧ win0_1.index t (2 : Fin 3) = 0
    ∧ win0_2.index t (0 : Fin 3) = win0_8.index t (0 : Fin 3) ∧ win0_2.index t (1 : Fin 3) = win0_8.index t (1 : Fin 3)
    ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 3) ≤ 1 ∧ win0_8.index t (1 : Fin 3) ≤ 7 ∧ win0_8.index t (2 : Fin 3) = 0 :=
  (by decide +kernel : ∀ t : Fin grid0.N, _)

/-- Every (graph, row block) pair is some grid point's. -/
theorem every_block : ∀ (g : Fin 2) (k : Fin 8), ∃ t : Fin cfg0.N, win0_8.index t = ![g.val, k.val, 0] :=
  (by decide +kernel : ∀ (g : Fin 2) (k : Fin 8), ∃ t : Fin grid0.N, win0_8.index t = ![g.val, k.val, 0])

/-! ## Reading the blocks -/

/-- An entry of the adjacency block is the adjacency's entry at the output block's graph and rows. -/
theorem adj_read (c : Dev nD) (t : Fin cfg0.N) (r : Fin 512) (k : Fin 4096) (i : S2x4096x4096.Idx)
    (h0 : (i 0).val = win0_8.index t (0 : Fin 3)) (h1 : (i 1).val = win0_8.index t (1 : Fin 3) * 512 + r.val)
    (h2 : (i 2).val = k.val) :
    adjBlk m c t (ix3 (0 : Fin 1) r k) = m ((c : Thread nD τ).loc main_arg0) i := by
  obtain ⟨e0, e1, e2, -⟩ := where_blocks t
  show atEntry m c main_arg0 (((cfg0.win 0).blk t).view.emb (ix3 (0 : Fin 1) r k)) = _
  rw [entry_arg0]
  refine congrArg _ (funext fun a => Fin.ext ?_)
  match a with
  | ⟨0, _⟩ => show win0_0.index t (0 : Fin 3) * 1 + 1 * 0 = (i 0).val; omega
  | ⟨1, _⟩ => show win0_0.index t (1 : Fin 3) * 512 + 1 * r.val = (i 1).val; omega
  | ⟨2, _⟩ => show win0_0.index t (2 : Fin 3) * 4096 + 1 * k.val = (i 2).val; omega

/-- An entry of the annotation block is the annotations' entry at the output block's graph. -/
theorem ann_read (c : Dev nD) (t : Fin cfg0.N) (k : Fin 4096) (j : Fin 32) (i : S2x4096x32.Idx)
    (h0 : (i 0).val = win0_8.index t (0 : Fin 3)) (h1 : (i 1).val = k.val) (h2 : (i 2).val = j.val) :
    annBlk m c t (ix3 (0 : Fin 1) k j) = m ((c : Thread nD τ).loc main_arg1) i := by
  obtain ⟨-, -, -, e0, e1, e2, -⟩ := where_blocks t
  show atEntry m c main_arg1 (((cfg0.win 1).blk t).view.emb (ix3 (0 : Fin 1) k j)) = _
  rw [entry_arg1]
  refine congrArg _ (funext fun a => Fin.ext ?_)
  match a with
  | ⟨0, _⟩ => show win0_1.index t (0 : Fin 3) * 1 + 1 * 0 = (i 0).val; omega
  | ⟨1, _⟩ => show win0_1.index t (1 : Fin 3) * 4096 + 1 * k.val = (i 1).val; omega
  | ⟨2, _⟩ => show win0_1.index t (2 : Fin 3) * 32 + 1 * j.val = (i 2).val; omega

/-- An entry of the hidden-state block is the annotations' entry at the output block's graph and rows. -/
theorem hid_read (c : Dev nD) (t : Fin cfg0.N) (r : Fin 512) (j : Fin 32) (i : S2x4096x32.Idx)
    (h0 : (i 0).val = win0_8.index t (0 : Fin 3)) (h1 : (i 1).val = win0_8.index t (1 : Fin 3) * 512 + r.val)
    (h2 : (i 2).val = j.val) :
    hidBlk m c t (ix3 (0 : Fin 1) r j) = m ((c : Thread nD τ).loc main_arg1) i := by
  obtain ⟨-, -, -, -, -, -, e0, e1, e2, -⟩ := where_blocks t
  show atEntry m c main_arg1 (((cfg0.win 2).blk t).view.emb (ix3 (0 : Fin 1) r j)) = _
  rw [entry_arg1]
  refine congrArg _ (funext fun a => Fin.ext ?_)
  match a with
  | ⟨0, _⟩ => show win0_2.index t (0 : Fin 3) * 1 + 1 * 0 = (i 0).val; omega
  | ⟨1, _⟩ => show win0_2.index t (1 : Fin 3) * 512 + 1 * r.val = (i 1).val; omega
  | ⟨2, _⟩ => show win0_2.index t (2 : Fin 3) * 32 + 1 * j.val = (i 2).val; omega

/-- The bias block is the bias argument as a row. -/
theorem bias_read (c : Dev nD) (t : Fin cfg0.N) (j : Fin 32) :
    biasBlk m c t (ix2 (0 : Fin 1) j) = m ((c : Thread nD τ).loc main_arg2) (ix3 (0 : Fin 1) (0 : Fin 1) j) := by
  obtain ⟨-, -, -, -, -, -, -, -, -, e0, e1, -⟩ := where_blocks t
  show (atEntry m c main_call0_v0 : S1x32.Idx → Elt Ideal .f32) (((cfg0.win 3).blk t).view.emb (ix2 (0 : Fin 1) j)) = _
  rw [entry_biasRow]
  refine shapeCast_apply _ shapeCasts_S1x1x32_S1x32 _ (ix3 (0 : Fin 1) (0 : Fin 1) j) ?_
  rewrite [Shape.rowMajor_val_three, Shape.rowMajor_val_two]
  show (0 * 1 + 0) * 32 + j.val = (win0_3.index t (0 : Fin 2) * 1 + 1 * 0) * 32 + (win0_3.index t (1 : Fin 2) * 32 + 1 * j.val)
  omega

/-- The input-gate matrix block is the whole matrix. -/
theorem in_read (c : Dev nD) (t : Fin cfg0.N) (j : Fin 32) (n : Fin 96) :
    inBlk m c t (ix2 j n) = m ((c : Thread nD τ).loc main_arg3) (ix2 j n) := by
  obtain ⟨-, -, -, -, -, -, -, -, -, -, -, e0, e1, -⟩ := where_blocks t
  show atEntry m c main_arg3 (((cfg0.win 4).blk t).view.emb (ix2 j n)) = _
  rw [entry_arg3]
  refine congrArg _ (funext fun a => Fin.ext ?_)
  match a with
  | ⟨0, _⟩ => show win0_4.index t (0 : Fin 2) * 32 + 1 * j.val = j.val; omega
  | ⟨1, _⟩ => show win0_4.index t (1 : Fin 2) * 96 + 1 * n.val = n.val; omega

/-- The recurrent-gate matrix block is the whole matrix. -/
theorem rec_read (c : Dev nD) (t : Fin cfg0.N) (j : Fin 32) (n : Fin 96) :
    recBlk m c t (ix2 j n) = m ((c : Thread nD τ).loc main_arg4) (ix2 j n) := by
  obtain ⟨-, -, -, -, -, -, -, -, -, -, -, -, -, e0, e1, -⟩ := where_blocks t
  show atEntry m c main_arg4 (((cfg0.win 5).blk t).view.emb (ix2 j n)) = _
  rw [entry_arg4]
  refine congrArg _ (funext fun a => Fin.ext ?_)
  match a with
  | ⟨0, _⟩ => show win0_5.index t (0 : Fin 2) * 32 + 1 * j.val = j.val; omega
  | ⟨1, _⟩ => show win0_5.index t (1 : Fin 2) * 96 + 1 * n.val = n.val; omega

/-- The input-gate bias block is the bias argument as a row. -/
theorem inBias_read (c : Dev nD) (t : Fin cfg0.N) (n : Fin 96) :
    inBiasBlk m c t (ix2 (0 : Fin 1) n) = m ((c : Thread nD τ).loc main_arg5) (ix1 n) := by
  obtain ⟨-, -, -, -, -, -, -, -, -, -, -, -, -, -, -, e0, e1, -⟩ := where_blocks t
  show (atEntry m c main_call0_v1 : S1x96.Idx → Elt Ideal .f32) (((cfg0.win 6).blk t).view.emb (ix2 (0 : Fin 1) n)) = _
  rw [entry_inBiasRow]
  refine shapeCast_apply _ shapeCasts_S96_S1x96 _ (ix1 n) ?_
  rewrite [Shape.rowMajor_val_one, Shape.rowMajor_val_two]
  show n.val = (win0_6.index t (0 : Fin 2) * 1 + 1 * 0) * 96 + (win0_6.index t (1 : Fin 2) * 96 + 1 * n.val)
  omega

/-- The recurrent-gate bias block is the bias argument as a row. -/
theorem recBias_read (c : Dev nD) (t : Fin cfg0.N) (n : Fin 96) :
    recBiasBlk m c t (ix2 (0 : Fin 1) n) = m ((c : Thread nD τ).loc main_arg6) (ix1 n) := by
  obtain ⟨-, -, -, -, -, -, -, -, -, -, -, -, -, -, -, -, -, e0, e1, -⟩ := where_blocks t
  show (atEntry m c main_call0_v2 : S1x96.Idx → Elt Ideal .f32) (((cfg0.win 7).blk t).view.emb (ix2 (0 : Fin 1) n)) = _
  rw [entry_recBiasRow]
  refine shapeCast_apply _ shapeCasts_S96_S1x96 _ (ix1 n) ?_
  rewrite [Shape.rowMajor_val_one, Shape.rowMajor_val_two]
  show n.val = (win0_7.index t (0 : Fin 2) * 1 + 1 * 0) * 96 + (win0_7.index t (1 : Fin 2) * 96 + 1 * n.val)
  omega

/-! ## What a grid point writes back -/

/-- The stored block's entry `(0, r, q)` at point `t` is the gated update of the launch arguments at the entry of the
    result it lands on: graph `g`, row `r'`, channel `q'`, whenever these are the output block's graph, its rows'
    offset plus `r`, and `q`. -/
theorem stored_at (c : Dev nD) (t : Fin cfg0.N) (r : Fin 512) (q : Fin 32) (g : Fin 2) (r' : Fin 4096) (q' : Fin 32)
    (hg : g.val = win0_8.index t (0 : Fin 3)) (hr : r'.val = win0_8.index t (1 : Fin 3) * 512 + r.val) (hq : q'.val = q.val) :
    BodyValue.stored (adjBlk m c t) (annBlk m c t) (hidBlk m c t) (biasBlk m c t) (inBlk m c t) (inBiasBlk m c t)
        (recBlk m c t) (recBiasBlk m c t) (ix3 (0 : Fin 1) r q)
      = Cert.Gru.gru (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) g r' q' := by
  obtain rfl : q' = q := Fin.ext hq
  rw [BodyValue.stored_apply]
  unfold Cert.Gru.gru
  congr 1
  · funext k; exact adj_read m c t r k _ hg hr rfl
  · funext k j; exact ann_read m c t k j _ hg rfl rfl
  · funext j; exact hid_read m c t r j _ hg hr rfl
  · funext j; exact bias_read m c t j
  · funext j n; exact in_read m c t j n
  · funext j n; exact rec_read m c t j n
  · funext n; exact inBias_read m c t n
  · funext n; exact recBias_read m c t n

/-- What point `t` writes back is block `t` of the whole result. -/
theorem stored_is_whole (c : Dev nD) (t : Fin cfg0.N) :
    (dats m 0 c).flushed 8 t = ((cfg0.win 8).blk t).view.read (Elt Ideal) (whole m c) := by
  show (cfg0.win 8).cut (grid0.coords t) ((dats m 0 c).after 8 t) = _
  rw [left8]
  unfold storedBlock
  rw [View.canon_unit_zero zero3]
  simp only [View.ld_unit_zero (S := S1x512x4096) zero3, View.ld_unit_zero (S := S1x4096x32) zero3,
    View.ld_unit_zero (S := S1x512x32) zero3, View.ld_unit_zero (S := S1x32) zero2, View.ld_unit_zero (S := S32x96) zero2,
    View.ld_unit_zero (S := S1x96) zero2]
  obtain ⟨-, -, -, -, -, -, -, -, -, -, -, -, -, -, -, -, -, -, -, b0, b1, b2⟩ := where_blocks t
  funext (j : S1x512x32.Idx)
  obtain ⟨z, r, q, rfl⟩ : ∃ (z : Fin 1) (r : Fin 512) (q : Fin 32), j = ix3 z r q := ⟨j 0, j 1, j 2, eq_ix3 j⟩
  obtain rfl : z = 0 := Subsingleton.elim _ _
  show BodyValue.stored (adjBlk m c t) (annBlk m c t) (hidBlk m c t) (biasBlk m c t) (inBlk m c t) (inBiasBlk m c t)
        (recBlk m c t) (recBiasBlk m c t) (ix3 (0 : Fin 1) r q)
      = whole m c (((cfg0.win 8).blk t).view.emb (ix3 (0 : Fin 1) r q))
  exact stored_at m c t r q _ _ _
    (by show win0_8.index t (0 : Fin 3) * 1 + 1 * 0 = _; omega)
    (by show win0_8.index t (1 : Fin 3) * 512 + 1 * r.val = _; omega)
    (by show win0_8.index t (2 : Fin 3) * 32 + 1 * q.val = _; omega)

/-! ## The blocks tile the result -/

/-- An index of the result is in point `t`'s block iff each coordinate is in the block's range on its axis. -/
theorem in_block (t : Fin cfg0.N) (i : S2x4096x32.Idx) :
    i ∈ ((cfg0.win 8).blk t).view.set ↔ ∀ a : Fin 3, win0_8.index t a * S1x512x32.size a ≤ (i a).val
      ∧ (i a).val < win0_8.index t a * S1x512x32.size a + S1x512x32.size a := by
  show i ∈ ((View.whole main_v0).slice (win0_8.rect t)).set ↔ _
  rw [View.set_slice_whole, Rect.mem_set_unit]
  exact Iff.rfl

/-- Every index of the result lies in the block of the point of its graph and row block. -/
theorem covered (i : S2x4096x32.Idx) :
    ∃ t : Fin cfg0.N, (cfg0.win 8).flush t = true ∧ i ∈ ((cfg0.win 8).blk t).view.set := by
  have h0 : (i 0).val < 2 := (i 0).isLt
  have h1 : (i 1).val < 4096 := (i 1).isLt
  have h2 : (i 2).val < 32 := (i 2).isLt
  obtain ⟨t, ht⟩ := every_block ⟨(i 0).val, h0⟩ ⟨(i 1).val / 512, by omega⟩
  have q0 : win0_8.index t (0 : Fin 3) = (i 0).val := congrFun ht 0
  have q1 : win0_8.index t (1 : Fin 3) = (i 1).val / 512 := congrFun ht 1
  have q2 : win0_8.index t (2 : Fin 3) = 0 := congrFun ht 2
  refine ⟨t, flush0_8 t, ?_⟩
  rw [in_block]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 512 ≤ (i 1).val ∧ (i 1).val < win0_8.index t (1 : Fin 3) * 512 + 512; omega
  | ⟨2, _⟩ => show win0_8.index t (2 : Fin 3) * 32 ≤ (i 2).val ∧ (i 2).val < win0_8.index t (2 : Fin 3) * 32 + 32; omega

/-- The result array after the run is the whole-array function. -/
theorem result_is_whole (c : Dev nD) : (dats m 0 c).arrAt 8 cfg0.N = whole m c :=
  (dats m 0 c).arrAt_eq_of_cover 8 (whole m c) (fun t _ => stored_is_whole m c t) covered

/-! ## The run, read -/

/-- Every weakly fair execution of the idealized kernel's program terminates with the result at the whole-array function
    of the launch arguments and the arguments unchanged. -/
theorem run : θ_run defs (onTc (τ := τ) (main (F := Ideal))) ⟨m, fun _ => 0, ρ⟩ fun r => ∀ c : Dev nD,
      r.2.mem ((c.tc : Thread nD τ).loc main_v0) = whole m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨((h c).1 8).trans (result_is_whole m c), args_kept m r h c⟩) (run_region m ρ)

end Cert.KernelIdeal.Result

end
-- ==== Proof.RefRead.lean ====
/-
  The reference program's run and its read-at-an-index lemmas, gathered for the modules that compare the
  reference's value with the kernel's.
-/
import proofs.«103752_g76081050681489_cont_9to1_m_207_5_alg».proof.Proof.Gen.ReferenceIdeal.Run
import proofs.«103752_g76081050681489_cont_9to1_m_207_5_alg».proof.Proof.Gen.ReferenceIdeal.Read
-- ==== Proof.LibCoe.lean ====
/-
  The extended-real operations of the ideal float instance, read on COERCED REALS.

  Every value of the ideal instance is an extended real. Where an argument is (the coercion of) a real number
  and stays away from an operation's corner (a zero divisor, a non-positive argument of the logarithm or of
  the reciprocal square root), the result is again the coercion of a real: the real operation's value. Each
  lemma below is such an equation, its right side a coerced real, so that a value claim over finite inputs can
  be pushed, operation by operation, from the extended reals down to a statement about real numbers.

  The bit patterns that denote the constants are unfolded here, once.
-/
import Idealize.ShloMosaic.PureOps.Ideal
import Idealize.ShloMosaic.PureOps.Ideal.Laws
import Mathlib.Data.EReal.Basic
import Mathlib.Data.EReal.Operations
import Mathlib.Data.EReal.Inv
import Mathlib.Analysis.SpecialFunctions.Sqrt
import Mathlib.Analysis.SpecialFunctions.Log.Basic
import Mathlib.Tactic.NormNum

noncomputable section

namespace Cert.LibCoe

open Idealize.ShloMosaic
open Finset BigOperators

/-! ### Field operations -/

/-- The sum of two coerced reals is the coercion of their sum. -/
theorem add_coe (a b : ℝ) : (a : EReal) + (b : EReal) = ((a + b : ℝ) : EReal) :=
  (EReal.coe_add a b).symm

/-- The difference of two coerced reals is the coercion of their difference. -/
theorem sub_coe (a b : ℝ) : (a : EReal) - (b : EReal) = ((a - b : ℝ) : EReal) :=
  (EReal.coe_sub a b).symm

/-- The product of two coerced reals is the coercion of their product. -/
theorem mul_coe (a b : ℝ) : (a : EReal) * (b : EReal) = ((a * b : ℝ) : EReal) :=
  (EReal.coe_mul a b).symm

/-- The negation of a coerced real is the coercion of its negation. -/
theorem neg_coe (a : ℝ) : -(a : EReal) = ((-a : ℝ) : EReal) :=
  (EReal.coe_neg a).symm

/-- Division of a coerced real by a coerced NON-ZERO real is the coercion of the real quotient: off zero the
    ideal division is the product with the inverse, and the inverse of a coerced real is the coerced inverse. -/
theorem div_coe_coe (a : ℝ) {b : ℝ} (hb : b ≠ 0) :
    Ideal.div (a : EReal) (b : EReal) = ((a / b : ℝ) : EReal) := by
  rw [Ideal.div_coe hb, ← EReal.coe_mul, mul_one_div]

/-- The maximum of two coerced reals is the coercion of their maximum (the coercion is monotone). -/
theorem max_coe (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- The minimum of two coerced reals is the coercion of their minimum. -/
theorem min_coe (a b : ℝ) : min (a : EReal) (b : EReal) = ((min a b : ℝ) : EReal) := by
  rcases le_total a b with h | h
  · rw [min_eq_left h, min_eq_left (EReal.coe_le_coe_iff.mpr h)]
  · rw [min_eq_right h, min_eq_right (EReal.coe_le_coe_iff.mpr h)]

/-- A finite sum of coerced reals is the coercion of the real sum. -/
theorem sum_coe {ι : Type*} (s : Finset ι) (f : ι → ℝ) :
    ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

/-! ### Transcendental operations -/

/-- The reciprocal square root of a coerced POSITIVE real is the coerced `(√r)⁻¹`. -/
theorem rsqrt_coe_pos {r : ℝ} (hr : 0 < r) :
    Ideal.rsqrt (r : EReal) = (((Real.sqrt r)⁻¹ : ℝ) : EReal) := by
  rw [Ideal.rsqrt_coe, if_neg (not_lt.mpr hr.le), if_neg hr.ne']

/-- The exponential of a coerced real is the coerced real exponential. -/
theorem exp_coe (r : ℝ) : Ideal.exp (r : EReal) = ((Real.exp r : ℝ) : EReal) := rfl

/-- The logarithm of a coerced POSITIVE real is the coerced real logarithm. -/
theorem log_coe_pos {r : ℝ} (hr : 0 < r) :
    Ideal.log (r : EReal) = ((Real.log r : ℝ) : EReal) := by
  rw [Ideal.log_coe, if_neg (not_le.mpr hr)]

/-! ### Comparison -/

/-- The ordered comparison "greater than" of two coerced reals is the bit of the real comparison. -/
theorem cmp_ogt_coe (a b : ℝ) :
    Ideal.cmp .ogt (a : EReal) (b : EReal) = BitVec.ofBool (decide (b < a)) := by
  simp only [Ideal.cmp, EReal.coe_lt_coe_iff]

/-- A coerced positive real is "greater than" the coerced zero: the comparison's bit is set. -/
theorem cmp_ogt_coe_zero_of_pos {a : ℝ} (ha : 0 < a) :
    Ideal.cmp .ogt (a : EReal) ((0 : ℝ) : EReal) = 1#1 := by
  rw [cmp_ogt_coe, decide_eq_true ha]; rfl

/-- A coerced non-positive real is not "greater than" the coerced zero: the comparison's bit is clear. -/
theorem cmp_ogt_coe_zero_of_nonpos {a : ℝ} (ha : a ≤ 0) :
    Ideal.cmp .ogt (a : EReal) ((0 : ℝ) : EReal) = 0#1 := by
  rw [cmp_ogt_coe, decide_eq_false (not_lt.mpr ha)]; rfl

/-! ### Constants: what the single-precision patterns denote -/

/-- The pattern of `+0.0` denotes the real `0`. -/
theorem ofBits_zero : Ideal.ofBits .f32 0x00000000#32 = ((0 : ℝ) : EReal) := by
  rw [Ideal.ofBits_zero_f32, EReal.coe_zero]

/-- The pattern of `1.0` (exponent field 127, fraction 0) denotes the real `1`. -/
theorem ofBits_one : Ideal.ofBits .f32 0x3F800000#32 = ((1 : ℝ) : EReal) := by
  simp [Ideal.ofBits, Ideal.ieee, -EReal.coe_mul]; norm_num

/-- The pattern of `10000.0` (exponent field 140, fraction `0x1C4000`): `(2²³ + 1851392) · 2⁻¹⁰ = 10000`. -/
theorem ofBits_10000 : Ideal.ofBits .f32 0x461C4000#32 = ((10000 : ℝ) : EReal) := by
  simp [Ideal.ofBits, Ideal.ieee, -EReal.coe_mul]; norm_num

/-- The single-precision number nearest `10⁻⁵`, exactly: exponent field 110, fraction `0x27C5AC`, that is
    `(2²³ + 2606508) · 2⁻⁴⁰ = 10995116 / 2⁴⁰`. -/
def epsR : ℝ := 10995116 / 1099511627776

/-- That number is positive. -/
theorem epsR_pos : 0 < epsR := by unfold epsR; norm_num

/-- The pattern `0x3727C5AC` denotes `epsR`. -/
theorem ofBits_eps : Ideal.ofBits .f32 0x3727C5AC#32 = ((epsR : ℝ) : EReal) := by
  unfold epsR
  simp [Ideal.ofBits, Ideal.ieee, -EReal.coe_mul]; norm_num

/-- The pattern of `-∞` (sign set, exponent field all ones, fraction 0) denotes `⊥`. -/
theorem ofBits_neg_inf : Ideal.ofBits .f32 0xFF800000#32 = (⊥ : EReal) := by
  simp [Ideal.ofBits, Ideal.ieee]

end Cert.LibCoe

end
-- ==== Proof.RefValue.lean ====
/-
  The reference program's result, read at one entry: it is the gated update `Cert.Gru.gru` of the argument arrays.

  The reference flattens the graphs' nodes into 8192 rows, row `b·4096 + r` being node `r` of graph `b`, computes the
  two projections on the flattened arrays, cuts the three gate column blocks out of each, applies the gates entry by
  entry and folds the rows back. Read at entry `(b, r, c)` every stage is a function of row `b·4096 + r`; the lemmas
  below read the stages at that row, in the order of the specification: the aggregation, the two projections, the
  gates, and the update.
-/
import proofs.«103752_g76081050681489_cont_9to1_m_207_5_alg».proof.Proof.RefRead
import proofs.«103752_g76081050681489_cont_9to1_m_207_5_alg».proof.Proof.Spec
import proofs.«103752_g76081050681489_cont_9to1_m_207_5_alg».proof.Proof.LibCoe
import Idealize.ShloMosaic.Lib.ValueIdx
import Idealize.ShloMosaic.PureOps.Ideal.Laws

noncomputable section

namespace Cert.ReferenceIdeal.RefValue

open Idealize.ShloMosaic Cert.ReferenceIdeal Cert.ReferenceIdeal.Read
open Idealize.ShloMosaic.ValueIdx (ix1 ix2 ix3)

/-- The row of the flattened arrays that holds node `r` of graph `b`. -/
def row (b : Fin 2) (r : Fin 4096) : Fin 8192 :=
  ⟨b.val * 4096 + r.val, by have := b.isLt; have := r.isLt; omega⟩

/-! ### Where each layout operation reads -/

/-- Folding the rows back: entry `(b, r, c)` of the result is entry `(b·4096 + r, c)` of the flattened update. -/
theorem idx41 (b : Fin 2) (r : Fin 4096) (c : Fin 32) : idx_main_v41 (ix3 b r c) = ix2 (row b r) c :=
  funext fun a => Fin.ext (by
    have hb := b.isLt; have hr := r.isLt; have hc := c.isLt
    match a with
    | ⟨0, _⟩ => show ((b.val * 4096 + r.val) * 32 + c.val) / 32 = b.val * 4096 + r.val; omega
    | ⟨1, _⟩ => show ((b.val * 4096 + r.val) * 32 + c.val) % 32 = c.val; omega)

/-- Flattening the aggregation: entry `(b·4096 + r, j)` is entry `(b, r, j)`. -/
theorem idx3 (b : Fin 2) (r : Fin 4096) (j : Fin 32) : idx_main_v3 (ix2 (row b r) j) = ix3 b r j :=
  funext fun a => Fin.ext (by
    have hb := b.isLt; have hr := r.isLt; have hj := j.isLt
    match a with
    | ⟨0, _⟩ => show ((b.val * 4096 + r.val) * 32 + j.val) / 131072 = b.val; omega
    | ⟨1, _⟩ => show ((b.val * 4096 + r.val) * 32 + j.val) / 32 % 4096 = r.val; omega
    | ⟨2, _⟩ => show ((b.val * 4096 + r.val) * 32 + j.val) % 32 = j.val; omega)

/-- Flattening the annotations: entry `(b·4096 + r, j)` is entry `(b, r, j)`. -/
theorem idx4 (b : Fin 2) (r : Fin 4096) (j : Fin 32) : idx_main_v4 (ix2 (row b r) j) = ix3 b r j :=
  funext fun a => Fin.ext (by
    have hb := b.isLt; have hr := r.isLt; have hj := j.isLt
    match a with
    | ⟨0, _⟩ => show ((b.val * 4096 + r.val) * 32 + j.val) / 131072 = b.val; omega
    | ⟨1, _⟩ => show ((b.val * 4096 + r.val) * 32 + j.val) / 32 % 4096 = r.val; omega
    | ⟨2, _⟩ => show ((b.val * 4096 + r.val) * 32 + j.val) % 32 = j.val; omega)

/-- The aggregation's left factor at term `k`: the adjacency of node `r` to node `k`. -/
theorem lidx0 (b : Fin 2) (r : Fin 4096) (j : Fin 32) (k : Fin 4096) : lidx_main_v0 (ix3 b r j) k = ix3 b r k :=
  funext fun a => by match a with | ⟨0, _⟩ => rfl | ⟨1, _⟩ => rfl | ⟨2, _⟩ => rfl

/-- The aggregation's right factor at term `k`: channel `j` of node `k`'s annotation. -/
theorem ridx0 (b : Fin 2) (r : Fin 4096) (j : Fin 32) (k : Fin 4096) : ridx_main_v0 (ix3 b r j) k = ix3 b k j :=
  funext fun a => by match a with | ⟨0, _⟩ => rfl | ⟨1, _⟩ => rfl | ⟨2, _⟩ => rfl

/-- The aggregation's bias is broadcast along graphs and nodes. -/
theorem idx1 (b : Fin 2) (r : Fin 4096) (j : Fin 32) : idx_main_v1 (ix3 b r j) = ix3 (0 : Fin 1) (0 : Fin 1) j :=
  funext fun a => by match a with | ⟨0, _⟩ => rfl | ⟨1, _⟩ => rfl | ⟨2, _⟩ => rfl

/-- The input projection's factors at term `j`. -/
theorem lidx5 (ρ : Fin 8192) (n : Fin 96) (j : Fin 32) : lidx_main_v5 (ix2 ρ n) j = ix2 ρ j :=
  funext fun a => by match a with | ⟨0, _⟩ => rfl | ⟨1, _⟩ => rfl
theorem ridx5 (ρ : Fin 8192) (n : Fin 96) (j : Fin 32) : ridx_main_v5 (ix2 ρ n) j = ix2 j n :=
  funext fun a => by match a with | ⟨0, _⟩ => rfl | ⟨1, _⟩ => rfl

/-- The recurrent projection's factors at term `j`. -/
theorem lidx9 (ρ : Fin 8192) (n : Fin 96) (j : Fin 32) : lidx_main_v9 (ix2 ρ n) j = ix2 ρ j :=
  funext fun a => by match a with | ⟨0, _⟩ => rfl | ⟨1, _⟩ => rfl
theorem ridx9 (ρ : Fin 8192) (n : Fin 96) (j : Fin 32) : ridx_main_v9 (ix2 ρ n) j = ix2 j n :=
  funext fun a => by match a with | ⟨0, _⟩ => rfl | ⟨1, _⟩ => rfl

/-- The projections' biases are broadcast along the rows. -/
theorem idx7 (ρ : Fin 8192) (n : Fin 96) : idx_main_v6 (idx_main_v7 (ix2 ρ n)) = ix1 n :=
  funext fun a => by match a with | ⟨0, _⟩ => rfl
theorem idx11 (ρ : Fin 8192) (n : Fin 96) : idx_main_v10 (idx_main_v11 (ix2 ρ n)) = ix1 n :=
  funext fun a => by match a with | ⟨0, _⟩ => rfl

/-- The update block of the input projection: its column `c` is gate column `0 + c` of the projection. -/
theorem idx13 (ρ : Fin 8192) (c : Fin 32) : idx_main_v13 (ix2 ρ c) = ix2 ρ (Cert.Gru.gcol 0 c) :=
  funext fun a => Fin.ext (by
    match a with
    | ⟨0, _⟩ => rfl
    | ⟨1, _⟩ => show c.val = 0 * 32 + c.val; omega)
/-- The reset block of the input projection: its column `c` is gate column `32 + c` of the projection. -/
theorem idx14 (ρ : Fin 8192) (c : Fin 32) : idx_main_v14 (ix2 ρ c) = ix2 ρ (Cert.Gru.gcol 1 c) :=
  funext fun a => Fin.ext (by
    match a with
    | ⟨0, _⟩ => rfl
    | ⟨1, _⟩ => show 32 + c.val = 1 * 32 + c.val; omega)
/-- The candidate block of the input projection: its column `c` is gate column `64 + c` of the projection. -/
theorem idx15 (ρ : Fin 8192) (c : Fin 32) : idx_main_v15 (ix2 ρ c) = ix2 ρ (Cert.Gru.gcol 2 c) :=
  funext fun a => Fin.ext (by
    match a with
    | ⟨0, _⟩ => rfl
    | ⟨1, _⟩ => show 64 + c.val = 2 * 32 + c.val; omega)
/-- The update block of the recurrent projection: its column `c` is gate column `0 + c` of the projection. -/
theorem idx16 (ρ : Fin 8192) (c : Fin 32) : idx_main_v16 (ix2 ρ c) = ix2 ρ (Cert.Gru.gcol 0 c) :=
  funext fun a => Fin.ext (by
    match a with
    | ⟨0, _⟩ => rfl
    | ⟨1, _⟩ => show c.val = 0 * 32 + c.val; omega)
/-- The reset block of the recurrent projection: its column `c` is gate column `32 + c` of the projection. -/
theorem idx17 (ρ : Fin 8192) (c : Fin 32) : idx_main_v17 (ix2 ρ c) = ix2 ρ (Cert.Gru.gcol 1 c) :=
  funext fun a => Fin.ext (by
    match a with
    | ⟨0, _⟩ => rfl
    | ⟨1, _⟩ => show 32 + c.val = 1 * 32 + c.val; omega)
/-- The candidate block of the recurrent projection: its column `c` is gate column `64 + c` of the projection. -/
theorem idx18 (ρ : Fin 8192) (c : Fin 32) : idx_main_v18 (ix2 ρ c) = ix2 ρ (Cert.Gru.gcol 2 c) :=
  funext fun a => Fin.ext (by
    match a with
    | ⟨0, _⟩ => rfl
    | ⟨1, _⟩ => show 64 + c.val = 2 * 32 + c.val; omega)

/-! ### The stages at a row -/

/-- The hidden state: the node's own annotation. -/
theorem hidden_apply (x1 : (⟨S2x4096x32, .f32⟩ : BufTy).Contents (Elt Ideal)) (b : Fin 2) (r : Fin 4096) (j : Fin 32) :
    val_main_v4 (F := Ideal) x1 (ix2 (row b r) j) = x1 (ix3 b r j) := by
  rw [val_main_v4_apply, idx4]

/-- The aggregation: channel `j` of node `(b, r)`'s graph convolution. -/
theorem agg_apply (x0 : (⟨S2x4096x4096, .f32⟩ : BufTy).Contents (Elt Ideal)) (x1 : (⟨S2x4096x32, .f32⟩ : BufTy).Contents (Elt Ideal))
    (x2 : (⟨S1x1x32, .f32⟩ : BufTy).Contents (Elt Ideal)) (b : Fin 2) (r : Fin 4096) (j : Fin 32) :
    val_main_v3 (F := Ideal) x0 x1 x2 (ix2 (row b r) j)
      = (∑ k : Fin 4096, x0 (ix3 b r k) * x1 (ix3 b k j)) + x2 (ix3 (0 : Fin 1) (0 : Fin 1) j) := by
  rw [val_main_v3_apply, idx3, val_main_v2_apply, val_main_v0_apply, val_main_v1_apply, idx1, Ideal.addf_def]
  simp only [lidx0, ridx0]

/-- The input projection at gate column `n`. -/
theorem xw_apply (x0 : (⟨S2x4096x4096, .f32⟩ : BufTy).Contents (Elt Ideal)) (x1 : (⟨S2x4096x32, .f32⟩ : BufTy).Contents (Elt Ideal))
    (x2 : (⟨S1x1x32, .f32⟩ : BufTy).Contents (Elt Ideal)) (x3 : (⟨S32x96, .f32⟩ : BufTy).Contents (Elt Ideal))
    (x5 : (⟨S96, .f32⟩ : BufTy).Contents (Elt Ideal)) (ρ : Fin 8192) (n : Fin 96) :
    val_main_v8 (F := Ideal) x0 x1 x2 x3 x5 (ix2 ρ n)
      = (∑ j : Fin 32, val_main_v3 (F := Ideal) x0 x1 x2 (ix2 ρ j) * x3 (ix2 j n)) + x5 (ix1 n) := by
  rw [val_main_v8_apply, val_main_v5_apply, val_main_v7_apply, val_main_v6_apply, idx7, Ideal.addf_def]
  simp only [lidx5, ridx5]

/-- The recurrent projection at gate column `n`. -/
theorem hu_apply (x1 : (⟨S2x4096x32, .f32⟩ : BufTy).Contents (Elt Ideal)) (x4 : (⟨S32x96, .f32⟩ : BufTy).Contents (Elt Ideal))
    (x6 : (⟨S96, .f32⟩ : BufTy).Contents (Elt Ideal)) (ρ : Fin 8192) (n : Fin 96) :
    val_main_v12 (F := Ideal) x1 x4 x6 (ix2 ρ n)
      = (∑ j : Fin 32, val_main_v4 (F := Ideal) x1 (ix2 ρ j) * x4 (ix2 j n)) + x6 (ix1 n) := by
  rw [val_main_v12_apply, val_main_v9_apply, val_main_v11_apply, val_main_v10_apply, idx11, Ideal.addf_def]
  simp only [lidx9, ridx9]

/-- The logistic function as the reference spells it, with negate, exponential, add and divide and the constant
    `1.0` as its single-precision pattern, is the logistic function: the pattern denotes `1`. -/
theorem logistic_spelt (x : EReal) :
    Ideal.div (Ideal.ofBits .f32 0x3F800000#32) (Ideal.ofBits .f32 0x3F800000#32 + Ideal.exp (-x)) = Ideal.logistic x := by
  rw [Cert.LibCoe.ofBits_one, EReal.coe_one]
  rfl

/-- The update gate. -/
theorem update_apply (x0 : (⟨S2x4096x4096, .f32⟩ : BufTy).Contents (Elt Ideal)) (x1 : (⟨S2x4096x32, .f32⟩ : BufTy).Contents (Elt Ideal))
    (x2 : (⟨S1x1x32, .f32⟩ : BufTy).Contents (Elt Ideal)) (x3 x4 : (⟨S32x96, .f32⟩ : BufTy).Contents (Elt Ideal))
    (x5 x6 : (⟨S96, .f32⟩ : BufTy).Contents (Elt Ideal)) (ρ : Fin 8192) (c : Fin 32) :
    val_main_v25 (F := Ideal) x0 x1 x2 x3 x4 x5 x6 (ix2 ρ c)
      = Ideal.logistic (val_main_v8 (F := Ideal) x0 x1 x2 x3 x5 (ix2 ρ (Cert.Gru.gcol 0 c))
          + val_main_v12 (F := Ideal) x1 x4 x6 (ix2 ρ (Cert.Gru.gcol 0 c))) := by
  rw [val_main_v25_apply, val_main_v24_apply, val_main_cst_0_apply, val_main_v23_apply, val_main_v22_apply,
    val_main_cst_apply, val_main_v21_apply, val_main_v20_apply, val_main_v19_apply, val_main_v13_apply,
    val_main_v16_apply, idx13, idx16]
  simp only [Ideal.hostDivf_def, Ideal.addf_def, Ideal.hostUnary_exp_def, Ideal.hostNegf_def, Ideal.negf_def,
    Ideal.ofBits_def]
  exact logistic_spelt _

/-- The reset gate. -/
theorem reset_apply (x0 : (⟨S2x4096x4096, .f32⟩ : BufTy).Contents (Elt Ideal)) (x1 : (⟨S2x4096x32, .f32⟩ : BufTy).Contents (Elt Ideal))
    (x2 : (⟨S1x1x32, .f32⟩ : BufTy).Contents (Elt Ideal)) (x3 x4 : (⟨S32x96, .f32⟩ : BufTy).Contents (Elt Ideal))
    (x5 x6 : (⟨S96, .f32⟩ : BufTy).Contents (Elt Ideal)) (ρ : Fin 8192) (c : Fin 32) :
    val_main_v32 (F := Ideal) x0 x1 x2 x3 x4 x5 x6 (ix2 ρ c)
      = Ideal.logistic (val_main_v8 (F := Ideal) x0 x1 x2 x3 x5 (ix2 ρ (Cert.Gru.gcol 1 c))
          + val_main_v12 (F := Ideal) x1 x4 x6 (ix2 ρ (Cert.Gru.gcol 1 c))) := by
  rw [val_main_v32_apply, val_main_v31_apply, val_main_cst_2_apply, val_main_v30_apply, val_main_v29_apply,
    val_main_cst_1_apply, val_main_v28_apply, val_main_v27_apply, val_main_v26_apply, val_main_v14_apply,
    val_main_v17_apply, idx14, idx17]
  simp only [Ideal.hostDivf_def, Ideal.addf_def, Ideal.hostUnary_exp_def, Ideal.hostNegf_def, Ideal.negf_def,
    Ideal.ofBits_def]
  exact logistic_spelt _

/-- The candidate state. -/
theorem candidate_apply (x0 : (⟨S2x4096x4096, .f32⟩ : BufTy).Contents (Elt Ideal)) (x1 : (⟨S2x4096x32, .f32⟩ : BufTy).Contents (Elt Ideal))
    (x2 : (⟨S1x1x32, .f32⟩ : BufTy).Contents (Elt Ideal)) (x3 x4 : (⟨S32x96, .f32⟩ : BufTy).Contents (Elt Ideal))
    (x5 x6 : (⟨S96, .f32⟩ : BufTy).Contents (Elt Ideal)) (ρ : Fin 8192) (c : Fin 32) :
    val_main_v35 (F := Ideal) x0 x1 x2 x3 x4 x5 x6 (ix2 ρ c)
      = Ideal.tanh (val_main_v8 (F := Ideal) x0 x1 x2 x3 x5 (ix2 ρ (Cert.Gru.gcol 2 c))
          + val_main_v32 (F := Ideal) x0 x1 x2 x3 x4 x5 x6 (ix2 ρ c)
            * val_main_v12 (F := Ideal) x1 x4 x6 (ix2 ρ (Cert.Gru.gcol 2 c))) := by
  rw [val_main_v35_apply, val_main_v34_apply, val_main_v33_apply, val_main_v15_apply, val_main_v18_apply, idx15, idx18]
  simp only [Ideal.hostUnary_tanh_def, Ideal.addf_def, Ideal.mulf_def]

/-- The gated update, before the rows are folded back. -/
theorem update_row_apply (x0 : (⟨S2x4096x4096, .f32⟩ : BufTy).Contents (Elt Ideal)) (x1 : (⟨S2x4096x32, .f32⟩ : BufTy).Contents (Elt Ideal))
    (x2 : (⟨S1x1x32, .f32⟩ : BufTy).Contents (Elt Ideal)) (x3 x4 : (⟨S32x96, .f32⟩ : BufTy).Contents (Elt Ideal))
    (x5 x6 : (⟨S96, .f32⟩ : BufTy).Contents (Elt Ideal)) (ρ : Fin 8192) (c : Fin 32) :
    val_main_v40 (F := Ideal) x0 x1 x2 x3 x4 x5 x6 (ix2 ρ c)
      = val_main_v25 (F := Ideal) x0 x1 x2 x3 x4 x5 x6 (ix2 ρ c) * val_main_v4 (F := Ideal) x1 (ix2 ρ c)
        + (Ideal.ofBits .f32 0x3F800000#32 - val_main_v25 (F := Ideal) x0 x1 x2 x3 x4 x5 x6 (ix2 ρ c))
          * val_main_v35 (F := Ideal) x0 x1 x2 x3 x4 x5 x6 (ix2 ρ c) := by
  rw [val_main_v40_apply, val_main_v36_apply, val_main_v39_apply, val_main_v38_apply, val_main_v37_apply,
    val_main_cst_3_apply]
  simp only [Ideal.addf_def, Ideal.mulf_def, Ideal.subf_def, Ideal.ofBits_def]

/-- Entry `(b, r, c)` of the reference's result is the gated update of the arguments at that entry. -/
theorem result_apply (x0 : (⟨S2x4096x4096, .f32⟩ : BufTy).Contents (Elt Ideal)) (x1 : (⟨S2x4096x32, .f32⟩ : BufTy).Contents (Elt Ideal))
    (x2 : (⟨S1x1x32, .f32⟩ : BufTy).Contents (Elt Ideal)) (x3 x4 : (⟨S32x96, .f32⟩ : BufTy).Contents (Elt Ideal))
    (x5 x6 : (⟨S96, .f32⟩ : BufTy).Contents (Elt Ideal)) (b : Fin 2) (r : Fin 4096) (c : Fin 32) :
    val_main_v41 (F := Ideal) x0 x1 x2 x3 x4 x5 x6 (ix3 b r c) = Cert.Gru.gru x0 x1 x2 x3 x4 x5 x6 b r c := by
  rw [val_main_v41_apply, idx41, update_row_apply, candidate_apply, reset_apply, update_apply]
  simp only [xw_apply, hu_apply, agg_apply, hidden_apply]
  rfl

end Cert.ReferenceIdeal.RefValue

end
-- ==== Proof.lean ====
/-
  The certificate's claim: the gated graph convolution kernel against its reference.

  Both programs compute, for every graph, node and channel, one step of a gated recurrent unit on the node's graph
  convolution (`Cert.Gru.cell`, in Proof/Spec.lean): the kernel one block of 512 rows per grid point, through three matrix
  products on the matrix unit; the reference as whole-array host operations on the arrays reshaped to 8192 rows. On the
  extended reals the two are the same sums, sums of products and transcendental functions entry by entry — the
  reference's `1 / (1 + e⁻ˣ)` is the kernel's logistic function by definition —, so no law of arithmetic beyond
  re-indexing is needed and the precondition is never opened.

  • The three frames: the kernel's and the idealized kernel's by the pipeline's launch with the annotations' array dealt
    in two half shares to its two windows (Proof/KernelRegion.lean, Proof/KernelIdealRegion.lean); the reference's from
    its run.
  • `preserves`: the idealization rewrote nothing.
  • `algebraic`: the idealized kernel's result array is `Cert.Gru.gru` of the arguments (Proof/KernelIdealResult.lean over
    Proof/KernelValue.lean), and so is the reference's (Proof/RefValue.lean).
-/
import proofs.«103752_g76081050681489_cont_9to1_m_207_5_alg».proof.Defs
import proofs.«103752_g76081050681489_cont_9to1_m_207_5_alg».proof.Proof.Gen.Kernel
import proofs.«103752_g76081050681489_cont_9to1_m_207_5_alg».proof.Proof.Gen.KernelIdeal
import proofs.«103752_g76081050681489_cont_9to1_m_207_5_alg».proof.Proof.Gen.ReferenceIdeal
import proofs.«103752_g76081050681489_cont_9to1_m_207_5_alg».proof.Proof.Gen.Pre_finite_inputs
import proofs.«103752_g76081050681489_cont_9to1_m_207_5_alg».proof.Proof.KernelRegion
import proofs.«103752_g76081050681489_cont_9to1_m_207_5_alg».proof.Proof.KernelIdealRegion
import proofs.«103752_g76081050681489_cont_9to1_m_207_5_alg».proof.Proof.KernelIdealResult
import proofs.«103752_g76081050681489_cont_9to1_m_207_5_alg».proof.Proof.RefRead
import proofs.«103752_g76081050681489_cont_9to1_m_207_5_alg».proof.Proof.RefValue
import Idealize.ShloMosaic.Adequacy
import Idealize.ShloMosaic.Init

noncomputable section

namespace Cert.Proof

open Idealize.ShloMosaic Idealize.ShloMosaic.TcCoe Idealize.SL.Sem
open Idealize.ShloMosaic.ValueIdx (ix3 eq_ix3)

/-- The word-level kernel runs to the end and leaves its arguments unchanged. -/
theorem frame_kernel : Cert.frame_Kernel := fun m ρ _ => Cert.Kernel.Region.frame m ρ

/-- So does its idealization. -/
theorem frame_kernelIdeal : Cert.frame_KernelIdeal := fun m ρ _ => Cert.KernelIdeal.Region.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both idealized programs end with the result at the gated update of the
    arguments, entry by entry. -/
theorem algebraic : Cert.algebraic_KernelIdeal_ReferenceIdeal := by
  intro m ρ m' ρ' _ hagree
  refine ⟨fun c => Cert.KernelIdeal.Result.whole m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v41_eq, (hagree c).1, (hagree c).2.1, (hagree c).2.2.1, (hagree c).2.2.2.1,
    (hagree c).2.2.2.2.1, (hagree c).2.2.2.2.2.1, (hagree c).2.2.2.2.2.2]
  funext i
  obtain ⟨b, r, q, rfl⟩ : ∃ (b : Fin 2) (r : Fin 4096) (q : Fin 32), i = ix3 b r q := ⟨i 0, i 1, i 2, eq_ix3 i⟩
  exact Cert.ReferenceIdeal.RefValue.result_apply _ _ _ _ _ _ _ b r q

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
